-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S1600000 : Shape := ⟨1, ![1600000]⟩
abbrev S320000 : Shape := ⟨1, ![320000]⟩
abbrev S256x128 : Shape := ⟨2, ![256, 128]⟩
abbrev S256 : Shape := ⟨1, ![256]⟩
abbrev S64x256 : Shape := ⟨2, ![64, 256]⟩
abbrev S64 : Shape := ⟨1, ![64]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg8 : FVec F S64x256 .f32) (main_arg9 : FVec F S64 .f32) (main_arg10 : FVec F S64x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S64x256 .f32 := Host.absf main_arg8
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x256 .f32 := Host.absf main_arg10
  let main_cst_10 : FVec F S_ .f32 := constant S_ .f32 0x7F800000#32
  let main_v30 : FVec F S64x256 .f32 := broadcastInDim S64x256 ![] bcast_S_S64x256 main_cst_10
  let main_v31 : IVec S64x256 1 := cmpf .olt main_v29 main_v30
  let main_c_11 : IVec S_ 1 := constantI S_ 1 1#1
  let main_v32 : IVec S_ 1 := (fun x v => Host.reduce IntOp.andi x v reducesTo_S64x256_S_d0_1 h_S_) main_v31 main_c_11
  let main_v33 : IVec S_ 1 := andi main_v28 main_v32
  main_v33

def fn {F : FTy → Type} [FloatOps F] (main_arg0 : FVec F S200000x128 .f32) (main_arg1 : IVec S1600000 32) (main_arg2 : IVec S1600000 32) (main_arg3 : IVec S320000 32) (main_arg4 : IVec S320000 32) (main_arg5 : FVec F S256x128 .f32) (main_arg6 : FVec F S256 .f32) (main_arg7 : FVec F S256x128 .f32) (main_arg8 : FVec F S64x256 .f32) (main_arg9 : FVec F S64 .f32) (main_arg10 : FVec F S64x256 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S256x128 .f32 := Host.absf main_arg5
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg6
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg7
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg8 main_arg9 main_arg10 main_v13 main_v16
-- ==== Kernel.lean ====
abbrev S200000x128 : Shape := ⟨2, ![200000, 128]⟩
abbrev S1600000 : Shape := ⟨1, ![1600000]⟩
abbrev S320000 : Shape := ⟨1, ![320000]⟩
abbrev S256x128 : Shape := ⟨2, ![256, 128]⟩
abbrev S256 : Shape := ⟨1, ![256]⟩
abbrev S64x256 : Shape := ⟨2, ![64, 256]⟩
abbrev S64 : Shape := ⟨1, ![64]⟩
abbrev S_ : Shape := ⟨0, ![]⟩
abbrev S1600000x1 : Shape := ⟨2, ![1600000, 1]⟩
abbrev S1600000x128 : Shape := ⟨2, ![1600000, 128]⟩
abbrev S100000x128 : Shape := ⟨2, ![100000, 128]⟩
abbrev S100000 : Shape := ⟨1, ![100000]⟩
abbrev S100000x1 : Shape := ⟨2, ![100000, 1]⟩
abbrev S128x256 : Shape := ⟨2, ![128, 256]⟩
abbrev S1x256 : Shape := ⟨2, ![1, 256]⟩
abbrev S100000x256 : Shape := ⟨2, ![100000, 256]⟩
abbrev S2000x128 : Shape := ⟨2, ![2000, 128]⟩
abbrev S2000x256 : Shape := ⟨2, ![2000, 256]⟩
abbrev S320000x1 : Shape := ⟨2, ![320000, 1]⟩
abbrev S320000x256 : Shape := ⟨2, ![320000, 256]⟩
abbrev S20000x256 : Shape := ⟨2, ![20000, 256]⟩
abbrev S20000 : Shape := ⟨1, ![20000]⟩
abbrev S20000x1 : Shape := ⟨2, ![20000, 1]⟩
abbrev S256x64 : Shape := ⟨2, ![256, 64]⟩
abbrev S1x64 : Shape := ⟨2, ![1, 64]⟩
abbrev S20000x64 : Shape := ⟨2, ![20000, 64]⟩
abbrev S2000x64 : Shape := ⟨2, ![2000, 64]⟩
abbrev S2000 : Shape := ⟨1, ![2000]⟩
abbrev S2000x1 : Shape := ⟨2, ![2000, 1]⟩

abbrev nBuf : Space → Nat
  | .hbm => 71
  | .vmem => 18
  | .smem => 0
  | _ => 0

abbrev bufTy : (tb : Table) → Fin (tcTables nBuf tb) → BufTy
  | .hbm, ⟨0, _⟩ => ⟨S200000x128, .f32⟩
  | .hbm, ⟨1, _⟩ => ⟨S1600000, .i32⟩
  | .hbm, ⟨2, _⟩ => ⟨S1600000, .i32⟩
  | .hbm, ⟨3, _⟩ => ⟨S320000, .i32⟩
  | .hbm, ⟨4, _⟩ => ⟨S320000, .i32⟩
  | .hbm, ⟨5, _⟩ => ⟨S256x128, .f32⟩
  | .hbm, ⟨6, _⟩ => ⟨S256, .f32⟩
  | .hbm, ⟨7, _⟩ => ⟨S256x128, .f32⟩
  | .hbm, ⟨8, _⟩ => ⟨S64x256, .f32⟩
  | .hbm, ⟨9, _⟩ => ⟨S64, .f32⟩
  | .hbm, ⟨10, _⟩ => ⟨S64x256, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S128x256, .f32⟩
  | .hbm, ⟨38, _⟩ => ⟨S128x256, .f32⟩
  | .hbm, ⟨39, _⟩ => ⟨S1x256, .f32⟩
  | .hbm, ⟨40, _⟩ => ⟨S100000x256, .f32⟩
  | .hbm, ⟨41, _⟩ => ⟨S_, .i32⟩
  | .hbm, ⟨42, _⟩ => ⟨S320000, .i32⟩
  | .hbm, ⟨43, _⟩ => ⟨S320000, .i1⟩
  | .hbm, ⟨44, _⟩ => ⟨S_, .i32⟩
  | .hbm, ⟨45, _⟩ => ⟨S320000, .i32⟩
  | .hbm, ⟨46, _⟩ => ⟨S320000, .i32⟩
  | .hbm, ⟨47, _⟩ => ⟨S320000, .i32⟩
  | .hbm, ⟨48, _⟩ => ⟨S320000x1, .i32⟩
  | .hbm, ⟨49, _⟩ => ⟨S320000x256, .f32⟩
  | .hbm, ⟨50, _⟩ => ⟨S_, .f32⟩
  | .hbm, ⟨51, _⟩ => ⟨S20000x256, .f32⟩
  | .hbm, ⟨52, _⟩ => ⟨S320000x1, .i32⟩
  | .hbm, ⟨53, _⟩ => ⟨S20000x256, .f32⟩
  | .hbm, ⟨54, _⟩ => ⟨S_, .f32⟩
  | .hbm, ⟨55, _⟩ => ⟨S320000, .f32⟩
  | .hbm, ⟨56, _⟩ => ⟨S_, .f32⟩
  | .hbm, ⟨57, _⟩ => ⟨S20000, .f32⟩
  | .hbm, ⟨58, _⟩ => ⟨S320000x1, .i32⟩
  | .hbm, ⟨59, _⟩ => ⟨S20000, .f32⟩
  | .hbm, ⟨60, _⟩ => ⟨S_, .f32⟩
  | .hbm, ⟨61, _⟩ => ⟨S20000, .f32⟩
  | .hbm, ⟨62, _⟩ => ⟨S20000, .f32⟩
  | .hbm, ⟨63, _⟩ => ⟨S20000x1, .f32⟩
  | .hbm, ⟨64, _⟩ => ⟨S20000x256, .f32⟩
  | .hbm, ⟨65, _⟩ => ⟨S20000x256, .f32⟩
  | .hbm, ⟨66, _⟩ => ⟨S20000x256, .f32⟩
  | .hbm, ⟨67, _⟩ => ⟨S256x64, .f32⟩
  | .hbm, ⟨68, _⟩ => ⟨S256x64, .f32⟩
  | .hbm, ⟨69, _⟩ => ⟨S1x64, .f32⟩
  | .hbm, ⟨70, _⟩ => ⟨S20000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S128x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x64, .f32⟩
  | .local _ .vmem, ⟨14, _⟩ => ⟨S1x64, .f32⟩
  | .local _ .vmem, ⟨15, _⟩ => ⟨S256x64, .f32⟩
  | .local _ .vmem, ⟨16, _⟩ => ⟨S2000x64, .f32⟩
  | .local _ .vmem, ⟨17, _⟩ => ⟨S2000x64, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S200000x128_S100000x128_0_0 : S200000x128.Slices ![0, 0] S100000x128
  transposes_S256x128_S128x256_1_0 : S256x128.Transposes [1, 0] S128x256
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S320000 : S_.BroadcastsInDim S320000 (![] : Fin 0 → Fin S320000.rank)
  bcast_S320000_S320000x1_0 : S320000.BroadcastsInDim S320000x1 (![0] : Fin 1 → Fin S320000x1.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  slices_S100000x256_S20000x256_0_0 : S100000x256.Slices ![0, 0] S20000x256
  transposes_S64x256_S256x64_1_0 : S64x256.Transposes [1, 0] S256x64
  shapeCasts_S64_S1x64 : S64.ShapeCasts S1x64
  shapeCasts_S2000x256_S2000x256 : S2000x256.ShapeCasts S2000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  gather_S200000x128_S1600000x1_S1600000x128_1_0_n_n_0_1_1128_wf : GatherDims.WF S200000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2000x128_S128x256_S2000x256_1_0_0_1_n_n_wf : DotDims.WF S2000x128 S128x256 S2000x256 [1] [0] [0] [1] [] []
  gather_S100000x256_S320000x1_S320000x256_1_0_n_n_0_1_1256_wf : GatherDims.WF S100000x256 S320000x1 S320000x256 [1] [0] [] [0] [] 1 ![1, 256]
  scatter_S20000x256_S320000x1_S320000x256_1_0_0_1_wf : ScatterDims.WF S20000x256 S320000x1 S320000x256 [1] [0] [0] 1
  scatter_S20000_S320000x1_S320000_n_0_0_1_wf : ScatterDims.WF S20000 S320000x1 S320000 [] [0] [0] 1
  dot_S2000x256_S256x64_S2000x64_1_0_0_1_n_n_wf : DotDims.WF S2000x256 S256x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S100000x256.size a
  hwx0_5 : ∀ i : grid0.Coords, EltTy.bits .f32 = 32 ∨ (Rect.block (s := S100000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S20000x256.size a
  hwx1_1 : ∀ i : grid1.Coords, EltTy.bits .f32 = 32 ∨ (Rect.block (s := S20000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S256x64.size a
  hwx1_2 : ∀ i : grid1.Coords, EltTy.bits .f32 = 32 ∨ (Rect.block (s := S256x64) S256x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x64.size a ≤ S256x64.size a
  hwx1_4 : ∀ i : grid1.Coords, EltTy.bits .f32 = 32 ∨ (Rect.block (s := S256x64) S256x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S20000x64.size a
  hwx1_5 : ∀ i : grid1.Coords, EltTy.bits .f32 = 32 ∨ (Rect.block (s := S20000x64) S2000x64.size (cc1_transform_5 i) (hinb1_5 i)).WholeWords (EltTy.packing .f32)

variable [Facts₀]

def gather_S200000x128_S1600000x1_S1600000x128_1_0_n_n_0_1_1128 : GatherDims S200000x128 S1600000x1 S1600000x128 where
  offsetDims := [1]
  collapsedSliceDims := [0]
  operandBatchingDims := []
  startIndicesBatchingDims := []
  startIndexMap := [0]
  indexVectorDim := 1
  sliceSizes := ![1, 128]
  wf := gather_S200000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S100000x256_S320000x1_S320000x256_1_0_n_n_0_1_1256 : GatherDims S100000x256 S320000x1 S320000x256 where
  offsetDims := [1]
  collapsedSliceDims := [0]
  operandBatchingDims := []
  startIndicesBatchingDims := []
  startIndexMap := [0]
  indexVectorDim := 1
  sliceSizes := ![1, 256]
  wf := gather_S100000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf

abbrev win0_0 : Pipeline.Window sig grid0 :=
  Pipeline.Window.ofSpec (Memref.whole main_v18) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S256x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S256x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S200000x128 : Shape := ⟨2, ![200000, 128]⟩
abbrev S1600000 : Shape := ⟨1, ![1600000]⟩
abbrev S320000 : Shape := ⟨1, ![320000]⟩
abbrev S256x128 : Shape := ⟨2, ![256, 128]⟩
abbrev S256 : Shape := ⟨1, ![256]⟩
abbrev S64x256 : Shape := ⟨2, ![64, 256]⟩
abbrev S64 : Shape := ⟨1, ![64]⟩
abbrev S_ : Shape := ⟨0, ![]⟩
abbrev S1600000x1 : Shape := ⟨2, ![1600000, 1]⟩
abbrev S1600000x128 : Shape := ⟨2, ![1600000, 128]⟩
abbrev S100000x128 : Shape := ⟨2, ![100000, 128]⟩
abbrev S100000 : Shape := ⟨1, ![100000]⟩
abbrev S100000x1 : Shape := ⟨2, ![100000, 1]⟩
abbrev S128x256 : Shape := ⟨2, ![128, 256]⟩
abbrev S100000x256 : Shape := ⟨2, ![100000, 256]⟩
abbrev S1x256 : Shape := ⟨2, ![1, 256]⟩
abbrev S320000x1 : Shape := ⟨2, ![320000, 1]⟩
abbrev S320000x256 : Shape := ⟨2, ![320000, 256]⟩
abbrev S20000x256 : Shape := ⟨2, ![20000, 256]⟩
abbrev S20000 : Shape := ⟨1, ![20000]⟩
abbrev S20000x1 : Shape := ⟨2, ![20000, 1]⟩
abbrev S256x64 : Shape := ⟨2, ![256, 64]⟩
abbrev S20000x64 : Shape := ⟨2, ![20000, 64]⟩
abbrev S1x64 : Shape := ⟨2, ![1, 64]⟩

abbrev nBuf : Space → Nat
  | .hbm => 97
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S1600000, .i32⟩
  | .hbm, ⟨2, _⟩ => ⟨S1600000, .i32⟩
  | .hbm, ⟨3, _⟩ => ⟨S320000, .i32⟩
  | .hbm, ⟨4, _⟩ => ⟨S320000, .i32⟩
  | .hbm, ⟨5, _⟩ => ⟨S256x128, .f32⟩
  | .hbm, ⟨6, _⟩ => ⟨S256, .f32⟩
  | .hbm, ⟨7, _⟩ => ⟨S256x128, .f32⟩
  | .hbm, ⟨8, _⟩ => ⟨S64x256, .f32⟩
  | .hbm, ⟨9, _⟩ => ⟨S64, .f32⟩
  | .hbm, ⟨10, _⟩ => ⟨S64x256, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S128x256, .f32⟩
  | .hbm, ⟨37, _⟩ => ⟨S100000x256, .f32⟩
  | .hbm, ⟨38, _⟩ => ⟨S1x256, .f32⟩
  | .hbm, ⟨39, _⟩ => ⟨S100000x256, .f32⟩
  | .hbm, ⟨40, _⟩ => ⟨S100000x256, .f32⟩
  | .hbm, ⟨41, _⟩ => ⟨S100000x128, .f32⟩
  | .hbm, ⟨42, _⟩ => ⟨S128x256, .f32⟩
  | .hbm, ⟨43, _⟩ => ⟨S100000x256, .f32⟩
  | .hbm, ⟨44, _⟩ => ⟨S100000x256, .f32⟩
  | .hbm, ⟨45, _⟩ => ⟨S_, .f32⟩
  | .hbm, ⟨46, _⟩ => ⟨S100000x256, .f32⟩
  | .hbm, ⟨47, _⟩ => ⟨S100000x256, .f32⟩
  | .hbm, ⟨48, _⟩ => ⟨S_, .i32⟩
  | .hbm, ⟨49, _⟩ => ⟨S320000, .i32⟩
  | .hbm, ⟨50, _⟩ => ⟨S320000, .i1⟩
  | .hbm, ⟨51, _⟩ => ⟨S_, .i32⟩
  | .hbm, ⟨52, _⟩ => ⟨S320000, .i32⟩
  | .hbm, ⟨53, _⟩ => ⟨S320000, .i32⟩
  | .hbm, ⟨54, _⟩ => ⟨S320000, .i32⟩
  | .hbm, ⟨55, _⟩ => ⟨S320000x1, .i32⟩
  | .hbm, ⟨56, _⟩ => ⟨S320000x256, .f32⟩
  | .hbm, ⟨57, _⟩ => ⟨S_, .f32⟩
  | .hbm, ⟨58, _⟩ => ⟨S20000x256, .f32⟩
  | .hbm, ⟨59, _⟩ => ⟨S320000x1, .i32⟩
  | .hbm, ⟨60, _⟩ => ⟨S20000x256, .f32⟩
  | .hbm, ⟨61, _⟩ => ⟨S_, .f32⟩
  | .hbm, ⟨62, _⟩ => ⟨S320000, .f32⟩
  | .hbm, ⟨63, _⟩ => ⟨S_, .f32⟩
  | .hbm, ⟨64, _⟩ => ⟨S20000, .f32⟩
  | .hbm, ⟨65, _⟩ => ⟨S320000x1, .i32⟩
  | .hbm, ⟨66, _⟩ => ⟨S20000, .f32⟩
  | .hbm, ⟨67, _⟩ => ⟨S_, .f32⟩
  | .hbm, ⟨68, _⟩ => ⟨S20000, .f32⟩
  | .hbm, ⟨69, _⟩ => ⟨S20000, .f32⟩
  | .hbm, ⟨70, _⟩ => ⟨S20000x1, .f32⟩
  | .hbm, ⟨71, _⟩ => ⟨S20000x256, .f32⟩
  | .hbm, ⟨72, _⟩ => ⟨S20000x256, .f32⟩
  | .hbm, ⟨73, _⟩ => ⟨S256x64, .f32⟩
  | .hbm, ⟨74, _⟩ => ⟨S20000x64, .f32⟩
  | .hbm, ⟨75, _⟩ => ⟨S1x64, .f32⟩
  | .hbm, ⟨76, _⟩ => ⟨S20000x64, .f32⟩
  | .hbm, ⟨77, _⟩ => ⟨S20000x64, .f32⟩
  | .hbm, ⟨78, _⟩ => ⟨S20000x256, .f32⟩
  | .hbm, ⟨79, _⟩ => ⟨S256x64, .f32⟩
  | .hbm, ⟨80, _⟩ => ⟨S20000x64, .f32⟩
  | .hbm, ⟨81, _⟩ => ⟨S20000x64, .f32⟩
  | .hbm, ⟨82, _⟩ => ⟨S_, .f32⟩
  | .hbm, ⟨83, _⟩ => ⟨S20000, .f32⟩
  | .hbm, ⟨84, _⟩ => ⟨S_, .f32⟩
  | .hbm, ⟨85, _⟩ => ⟨S20000, .f32⟩
  | .hbm, ⟨86, _⟩ => ⟨S20000, .f32⟩
  | .hbm, ⟨87, _⟩ => ⟨S20000x1, .f32⟩
  | .hbm, ⟨88, _⟩ => ⟨S20000x64, .f32⟩
  | .hbm, ⟨89, _⟩ => ⟨S20000x64, .f32⟩
  | .hbm, ⟨90, _⟩ => ⟨S20000x64, .f32⟩
  | .hbm, ⟨91, _⟩ => ⟨S_, .f32⟩
  | .hbm, ⟨92, _⟩ => ⟨S20000, .f32⟩
  | .hbm, ⟨93, _⟩ => ⟨S20000x1, .f32⟩
  | .hbm, ⟨94, _⟩ => ⟨S20000x1, .f32⟩
  | .hbm, ⟨95, _⟩ => ⟨S20000x64, .f32⟩
  | .hbm, ⟨96, _⟩ => ⟨S20000x64, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call0_cst : Ref sig .tc := ⟨.hbm, 45, rfl⟩
abbrev main_call0_v0 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_call1_cst : Ref sig .tc := ⟨.hbm, 82, rfl⟩
abbrev main_call1_v0 : Ref sig .tc := ⟨.hbm, 83, rfl⟩
abbrev main_call1_cst_0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_v6 : Ref sig .tc := ⟨.hbm, 90, rfl⟩
abbrev main_call1_cst_1 : Ref sig .tc := ⟨.hbm, 91, rfl⟩
abbrev main_call1_v7 : Ref sig .tc := ⟨.hbm, 92, rfl⟩
abbrev main_call1_v8 : Ref sig .tc := ⟨.hbm, 93, rfl⟩
abbrev main_call1_v9 : Ref sig .tc := ⟨.hbm, 94, rfl⟩
abbrev main_call1_v10 : Ref sig .tc := ⟨.hbm, 95, rfl⟩
abbrev main_v57 : Ref sig .tc := ⟨.hbm, 96, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S256x128_S128x256_1_0 : S256x128.Transposes [1, 0] S128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  slices_S200000x128_S100000x128_0_0 : S200000x128.Slices ![0, 0] S100000x128
  bcast_S_S100000x256 : S_.BroadcastsInDim S100000x256 (![] : Fin 0 → Fin S100000x256.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  transposes_S64x256_S256x64_1_0 : S64x256.Transposes [1, 0] S256x64
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  slices_S100000x256_S20000x256_0_0 : S100000x256.Slices ![0, 0] S20000x256
  reducesTo_S20000x64_S20000_d1 : S20000x64.ReducesTo [1] S20000
  h_S_ : 0 < S_.numel
  bcast_S20000x1_S20000x64_0_1 : S20000x1.BroadcastsInDim S20000x64 (![0, 1] : Fin 2 → Fin S20000x64.rank)
  gather_S200000x128_S1600000x1_S1600000x128_1_0_n_n_0_1_1128_wf : GatherDims.WF S200000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x256_S100000x256_1_0_0_1_n_n_wf : DotDims.WF S100000x128 S128x256 S100000x256 [1] [0] [0] [1] [] []
  gather_S100000x256_S320000x1_S320000x256_1_0_n_n_0_1_1256_wf : GatherDims.WF S100000x256 S320000x1 S320000x256 [1] [0] [] [0] [] 1 ![1, 256]
  scatter_S20000x256_S320000x1_S320000x256_1_0_0_1_wf : ScatterDims.WF S20000x256 S320000x1 S320000x256 [1] [0] [0] 1
  scatter_S20000_S320000x1_S320000_n_0_0_1_wf : ScatterDims.WF S20000 S320000x1 S320000 [] [0] [0] 1
  dot_S20000x256_S256x64_S20000x64_1_0_0_1_n_n_wf : DotDims.WF S20000x256 S256x64 S20000x64 [1] [0] [0] [1] [] []

variable [Facts₀]

def gather_S200000x128_S1600000x1_S1600000x128_1_0_n_n_0_1_1128 : GatherDims S200000x128 S1600000x1 S1600000x128 where
  offsetDims := [1]
  collapsedSliceDims := [0]
  operandBatchingDims := []
  startIndicesBatchingDims := []
  startIndexMap := [0]
  indexVectorDim := 1
  sliceSizes := ![1, 128]
  wf := gather_S200000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S320000x1_S320000x256_1_0_n_n_0_1_1256 : GatherDims S100000x256 S320000x1 S320000x256 where
  offsetDims := [1]
  collapsedSliceDims := [0]
  operandBatchingDims := []
  startIndicesBatchingDims := []
  startIndexMap := [0]
  indexVectorDim := 1
  sliceSizes := ![1, 256]
  wf := gather_S100000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def dot_S20000x256_S256x64_S20000x64_1_0_0_1_n_n : DotDims S20000x256 S256x64 S20000x64 where
  lhsContracting := [1]
  rhsContracting := [0]
  lhsNonContracting := [0]
  rhsNonContracting := [1]
  lhsBatch := []
  rhsBatch := []
  wf := dot_S20000x256_S256x64_S20000x64_1_0_0_1_n_n_wf

class Facts : Prop extends Facts₀ where

variable [Facts]
-- ==== Proof.KHost.lean ====
/-
  The host operations around the two regions, on the kernel's side, read as the reference's stages.

  Before the first region the kernel program forms the mean of the gathered neighbour rows, slices the nodes' own leading
  rows, transposes the two weight matrices and lays the bias out as a row; between the regions it does the same from the
  first region's result. These are, operation for operation, the reference's own host operations, so from contents that
  agree on what is read they leave the reference's stages: nothing of a gather or a scatter is opened. The one operation
  spelt differently is the bias row: a vector of `n` entries reshaped to `[1, n]` here, broadcast along a new leading
  axis there; both hold entry `j` at `(0, j)`.
-/
import proofs.«145620_j876173328847_1_alg».proof.Proof.Gen.KernelIdeal.Frame
import proofs.«145620_j876173328847_1_alg».proof.Proof.RefRead
import Idealize.ShloMosaic.Lib.StableHlo.Run
import Idealize.ShloMosaic.Lib.ValueIdx
import Idealize.ShloMosaic.Lib.ValueLayout

noncomputable section

namespace Cert.KernelIdeal.KHost

open Cert.KernelIdeal Cert.KernelIdeal.Gen Cert.ReferenceIdeal.ReadP
open Idealize.ShloMosaic Idealize.ShloMosaic.TcCoe Idealize.ShloMosaic.ValueIdx Idealize.SL.Sem Idealize.ShloMosaic.StableHlo

/-! ## The bias as a row -/

/-- 256 entries reshaped to a `[1, 256]` row are those entries broadcast along a new leading axis. -/
theorem bias_row256 (x : (⟨Cert.ReferenceIdeal.S256, .f32⟩ : BufTy).Contents (Elt Ideal)) :
    (shapeCast S1x256 x shapeCasts_S256_S1x256 : FVec Ideal S1x256 .f32) = val_main_v21 (F := Ideal) x := by
  funext i
  obtain ⟨u, j, rfl⟩ : ∃ (u : Fin 1) (j : Fin 256), i = ix2 u j := ⟨i 0, i 1, eq_ix2 i⟩
  rw [val_main_v21_apply]
  refine (shapeCast_a_1a_apply x shapeCasts_S256_S1x256 u j).trans (congrArg x ?_)
  funext a
  match a with
  | ⟨0, _⟩ => rfl

/-- 64 entries reshaped to a `[1, 64]` row are those entries broadcast along a new leading axis. -/
theorem bias_row64 (x : (⟨Cert.ReferenceIdeal.S64, .f32⟩ : BufTy).Contents (Elt Ideal)) :
    (shapeCast S1x64 x shapeCasts_S64_S1x64 : FVec Ideal S1x64 .f32) = val_main_v50 (F := Ideal) x := by
  funext i
  obtain ⟨u, j, rfl⟩ : ∃ (u : Fin 1) (j : Fin 64), i = ix2 u j := ⟨i 0, i 1, eq_ix2 i⟩
  rw [val_main_v50_apply]
  refine (shapeCast_a_1a_apply x shapeCasts_S64_S1x64 u j).trans (congrArg x ?_)
  funext a
  match a with
  | ⟨0, _⟩ => rfl

variable (W : Valuation τ sig (Elt Ideal))

/-! ## Before the first region -/

/-- The mean of the gathered neighbour rows is the reference's first aggregate. -/
theorem entry0_agg : after (hostOps0 (F := Ideal)) W (Proc.devRef .tc main_v18)
    = val_main_v18 (F := Ideal) (W (Proc.devRef .tc main_arg0)) (W (Proc.devRef .tc main_arg1)) (W (Proc.devRef .tc main_arg2)) := by
  simp only [hostOps0]
  after_results_simp
  rfl

/-- The nodes' own leading rows. -/
theorem entry0_self : after (hostOps0 (F := Ideal)) W (Proc.devRef .tc main_v19) = val_main_v24 (F := Ideal) (W (Proc.devRef .tc main_arg0)) := by
  simp only [hostOps0]
  after_results_simp
  rfl

/-- The left weights, transposed. -/
theorem entry0_wl : after (hostOps0 (F := Ideal)) W (Proc.devRef .tc main_v20) = val_main_v19 (F := Ideal) (W (Proc.devRef .tc main_arg5)) := by
  simp only [hostOps0]
  after_results_simp
  rfl

/-- The right weights, transposed. -/
theorem entry0_wr : after (hostOps0 (F := Ideal)) W (Proc.devRef .tc main_v21) = val_main_v25 (F := Ideal) (W (Proc.devRef .tc main_arg7)) := by
  simp only [hostOps0]
  after_results_simp
  rfl

/-- The bias as a row. -/
theorem entry0_bias : after (hostOps0 (F := Ideal)) W (Proc.devRef .tc main_v22) = val_main_v21 (F := Ideal) (W (Proc.devRef .tc main_arg6)) := by
  simp only [hostOps0]
  after_results_simp
  exact bias_row256 _

/-- No operation before the first region writes argument 3's buffer. -/
theorem keep0_arg3 : after (hostOps0 (F := Ideal)) W (Proc.devRef .tc main_arg3) = W (Proc.devRef .tc main_arg3) := by
  simp only [hostOps0]
  after_results_simp

/-- No operation before the first region writes argument 4's buffer. -/
theorem keep0_arg4 : after (hostOps0 (F := Ideal)) W (Proc.devRef .tc main_arg4) = W (Proc.devRef .tc main_arg4) := by
  simp only [hostOps0]
  after_results_simp

/-- No operation before the first region writes argument 8's buffer. -/
theorem keep0_arg8 : after (hostOps0 (F := Ideal)) W (Proc.devRef .tc main_arg8) = W (Proc.devRef .tc main_arg8) := by
  simp only [hostOps0]
  after_results_simp

/-- No operation before the first region writes argument 9's buffer. -/
theorem keep0_arg9 : after (hostOps0 (F := Ideal)) W (Proc.devRef .tc main_arg9) = W (Proc.devRef .tc main_arg9) := by
  simp only [hostOps0]
  after_results_simp

/-- No operation before the first region writes argument 10's buffer. -/
theorem keep0_arg10 : after (hostOps0 (F := Ideal)) W (Proc.devRef .tc main_arg10) = W (Proc.devRef .tc main_arg10) := by
  simp only [hostOps0]
  after_results_simp

/-! ## Between the regions -/

/-- From the first layer's output, the mean of its gathered rows is the reference's second aggregate. -/
theorem entry1_agg (x0 : (⟨Cert.ReferenceIdeal.S200000x128, .f32⟩ : BufTy).Contents (Elt Ideal)) (x1 x2 : (⟨Cert.ReferenceIdeal.S1600000, .i32⟩ : BufTy).Contents (Elt Ideal)) (x3 x4 : (⟨Cert.ReferenceIdeal.S320000, .i32⟩ : BufTy).Contents (Elt Ideal))
    (x5 : (⟨Cert.ReferenceIdeal.S256x128, .f32⟩ : BufTy).Contents (Elt Ideal)) (x6 : (⟨Cert.ReferenceIdeal.S256, .f32⟩ : BufTy).Contents (Elt Ideal)) (x7 : (⟨Cert.ReferenceIdeal.S256x128, .f32⟩ : BufTy).Contents (Elt Ideal))
    (hH : (W (Proc.devRef .tc main_v23)) = val_main_v28 (F := Ideal) x0 x1 x2 x5 x6 x7)
    (h3 : (W (Proc.devRef .tc main_arg3)) = x3) (h4 : (W (Proc.devRef .tc main_arg4)) = x4) :
    after (hostOps1 (F := Ideal)) W (Proc.devRef .tc main_v42) = val_main_v47 (F := Ideal) x0 x1 x2 x3 x4 x5 x6 x7 := by
  simp only [hostOps1]
  after_results_simp
  rw [hH, h3, h4]
  rfl

/-- The first layer's leading rows. -/
theorem entry1_self (x0 : (⟨Cert.ReferenceIdeal.S200000x128, .f32⟩ : BufTy).Contents (Elt Ideal)) (x1 x2 : (⟨Cert.ReferenceIdeal.S1600000, .i32⟩ : BufTy).Contents (Elt Ideal))
    (x5 : (⟨Cert.ReferenceIdeal.S256x128, .f32⟩ : BufTy).Contents (Elt Ideal)) (x6 : (⟨Cert.ReferenceIdeal.S256, .f32⟩ : BufTy).Contents (Elt Ideal)) (x7 : (⟨Cert.ReferenceIdeal.S256x128, .f32⟩ : BufTy).Contents (Elt Ideal))
    (hH : (W (Proc.devRef .tc main_v23)) = val_main_v28 (F := Ideal) x0 x1 x2 x5 x6 x7) :
    after (hostOps1 (F := Ideal)) W (Proc.devRef .tc main_v43) = val_main_v53 (F := Ideal) x0 x1 x2 x5 x6 x7 := by
  simp only [hostOps1]
  after_results_simp
  rw [hH]
  rfl

/-- The second layer's left weights, transposed. -/
theorem entry1_wl : after (hostOps1 (F := Ideal)) W (Proc.devRef .tc main_v44) = val_main_v48 (F := Ideal) (W (Proc.devRef .tc main_arg8)) := by
  simp only [hostOps1]
  after_results_simp
  rfl

/-- The second layer's right weights, transposed. -/
theorem entry1_wr : after (hostOps1 (F := Ideal)) W (Proc.devRef .tc main_v45) = val_main_v54 (F := Ideal) (W (Proc.devRef .tc main_arg10)) := by
  simp only [hostOps1]
  after_results_simp
  rfl

/-- The second layer's bias as a row. -/
theorem entry1_bias : after (hostOps1 (F := Ideal)) W (Proc.devRef .tc main_v46) = val_main_v50 (F := Ideal) (W (Proc.devRef .tc main_arg9)) := by
  simp only [hostOps1]
  after_results_simp
  exact bias_row64 _

end Cert.KernelIdeal.KHost

end
-- ==== Proof.Spec.lean ====
/-
  The two layers of the network, one output entry at a time, on the extended reals.

  A layer's entry before its activation is a sum of two row-by-column products and a bias:
  `lin a x wl wr b = (∑ₖ aₖ·wlₖ + ∑ₖ xₖ·wrₖ) + b`, where `a` is the row of the aggregated neighbours, `x` the
  row of the node's own features, `wl` and `wr` the matching columns of the two (transposed) weight matrices.
  One program adds the bias last and the other adds it between the two products; addition on the extended reals
  is commutative and associative, so the two groupings are one number (`lin_bias_between`) and no finiteness is used.

  Layer 1 is `max (lin …) 0` entry by entry. Layer 2 is the log-softmax of each row of `lin …`: with `m` the row's
  maximum, `(h j − m) − log (∑_c exp (h c − m))`. The row's maximum is a fold of `max` that starts from the f32 word of
  −∞; the words of 0 and of −∞ are kept as words and never evaluated: the same word stands on both sides.
-/
import Idealize.ShloMosaic.PureOps.Ideal
import Idealize.ShloMosaic.PureOps.Ideal.Laws
import Idealize.ShloMosaic.Lib.ValueIdx
import Mathlib.Data.Finset.Fold

noncomputable section

namespace Cert.Sage

open Idealize.ShloMosaic Idealize.ShloMosaic.ValueIdx

/-- The row coordinate of an index of a rank-2 array, at its literal extent. -/
abbrev row2 {n0 n1 : ℕ} (i : (⟨2, ![n0, n1]⟩ : Shape).Idx) : Fin n0 := ⟨(i 0).val, idx2_lt0 i⟩
/-- The column coordinate of an index of a rank-2 array, at its literal extent. -/
abbrev col2 {n0 n1 : ℕ} (i : (⟨2, ![n0, n1]⟩ : Shape).Idx) : Fin n1 := ⟨(i 1).val, idx2_lt1 i⟩

theorem row2_ix2 {n0 n1 : ℕ} (p : Fin n0) (q : Fin n1) : row2 (ix2 p q) = p := rfl
theorem col2_ix2 {n0 n1 : ℕ} (p : Fin n0) (q : Fin n1) : col2 (ix2 p q) = q := rfl

/-- One entry of a layer before its activation: the aggregated row against its weight column, plus the node's own
    row against its weight column, plus the bias. -/
def lin {K : ℕ} (a x wl wr : Fin K → EReal) (b : EReal) : EReal :=
  ((∑ k, a k * wl k) + ∑ k, x k * wr k) + b

/-- The bias added between the two products instead of after them: the same number. -/
theorem lin_bias_between {K : ℕ} (a x wl wr : Fin K → EReal) (b : EReal) :
    ((∑ k, a k * wl k) + b) + ∑ k, x k * wr k = lin a x wl wr b := by
  unfold lin; exact add_right_comm _ _ _

/-- The rectifier against the f32 word of zero. -/
def relu (v : EReal) : EReal := max v (Ideal.ofBits .f32 0x00000000#32)

/-- A row's maximum: the fold of `max` over its entries from the f32 word of −∞. -/
def rowMax {n : ℕ} (h : Fin n → EReal) : EReal :=
  (Finset.univ : Finset (Fin n)).fold max (Ideal.ofBits .f32 0xFF800000#32) h

/-- Taking the maximum once more with the word the fold started from changes nothing. -/
theorem max_start_rowMax {n : ℕ} (h : Fin n → EReal) :
    max (Ideal.ofBits .f32 0xFF800000#32) (rowMax h) = rowMax h :=
  max_eq_right ((Finset.le_fold_max _).mpr (Or.inl le_rfl))

/-- The log-softmax of a row, at entry `j`. -/
def logSoftmax {n : ℕ} (h : Fin n → EReal) (j : Fin n) : EReal :=
  (h j - rowMax h) - Ideal.log (∑ c, Ideal.exp (h c - rowMax h))

/-- Layer 1 at row `r`, column `j`. -/
def layer1At (A X : FVec Ideal ⟨2, ![100000, 128]⟩ .f32) (Wl : FVec Ideal ⟨2, ![128, 256]⟩ .f32)
    (B : FVec Ideal ⟨2, ![1, 256]⟩ .f32) (Wr : FVec Ideal ⟨2, ![128, 256]⟩ .f32) (r : Fin 100000) (j : Fin 256) : EReal :=
  relu (lin (fun k : Fin 128 => A (ix2 r k)) (fun k => X (ix2 r k)) (fun k => Wl (ix2 k j)) (fun k => Wr (ix2 k j))
    (B (ix2 (0 : Fin 1) j)))

/-- Layer 1 as one array: 100000 rows of 256 entries. -/
def layer1 (A X : FVec Ideal ⟨2, ![100000, 128]⟩ .f32) (Wl : FVec Ideal ⟨2, ![128, 256]⟩ .f32)
    (B : FVec Ideal ⟨2, ![1, 256]⟩ .f32) (Wr : FVec Ideal ⟨2, ![128, 256]⟩ .f32) : FVec Ideal ⟨2, ![100000, 256]⟩ .f32 :=
  fun i => layer1At A X Wl B Wr (row2 i) (col2 i)

theorem layer1_ix2 (A X : FVec Ideal ⟨2, ![100000, 128]⟩ .f32) (Wl : FVec Ideal ⟨2, ![128, 256]⟩ .f32)
    (B : FVec Ideal ⟨2, ![1, 256]⟩ .f32) (Wr : FVec Ideal ⟨2, ![128, 256]⟩ .f32) (r : Fin 100000) (j : Fin 256) :
    layer1 A X Wl B Wr (ix2 r j) = layer1At A X Wl B Wr r j := rfl

/-- Layer 2 at row `r`, column `j`: the log-softmax of the row of linear entries. -/
def layer2At (A X : FVec Ideal ⟨2, ![20000, 256]⟩ .f32) (Wl : FVec Ideal ⟨2, ![256, 64]⟩ .f32)
    (B : FVec Ideal ⟨2, ![1, 64]⟩ .f32) (Wr : FVec Ideal ⟨2, ![256, 64]⟩ .f32) (r : Fin 20000) (j : Fin 64) : EReal :=
  logSoftmax (fun c : Fin 64 => lin (fun k : Fin 256 => A (ix2 r k)) (fun k => X (ix2 r k)) (fun k => Wl (ix2 k c))
    (fun k => Wr (ix2 k c)) (B (ix2 (0 : Fin 1) c))) j

/-- Layer 2 as one array: 20000 rows of 64 entries. -/
def layer2 (A X : FVec Ideal ⟨2, ![20000, 256]⟩ .f32) (Wl : FVec Ideal ⟨2, ![256, 64]⟩ .f32)
    (B : FVec Ideal ⟨2, ![1, 64]⟩ .f32) (Wr : FVec Ideal ⟨2, ![256, 64]⟩ .f32) : FVec Ideal ⟨2, ![20000, 64]⟩ .f32 :=
  fun i => layer2At A X Wl B Wr (row2 i) (col2 i)

theorem layer2_ix2 (A X : FVec Ideal ⟨2, ![20000, 256]⟩ .f32) (Wl : FVec Ideal ⟨2, ![256, 64]⟩ .f32)
    (B : FVec Ideal ⟨2, ![1, 64]⟩ .f32) (Wr : FVec Ideal ⟨2, ![256, 64]⟩ .f32) (r : Fin 20000) (j : Fin 64) :
    layer2 A X Wl B Wr (ix2 r j) = layer2At A X Wl B Wr r j := rfl

end Cert.Sage

end
-- ==== Proof.K1Pay.lean ====
/-
  The first layer's block, read at an entry. At row `p`, column `q` of a 2000-row block the body's stored value is
  `max ((∑ₖ a(p,k)·wl(k,q) + ∑ₖ x(p,k)·wr(k,q)) + b(0,q)) 0`: each matrix product into a zero accumulator is the plain
  sum over the 128 contracted entries, the narrowing of the operands to bf16 is the identity on the extended reals, and the
  bias row is read at row 0 whatever `p`.
-/
import proofs.«145620_j876173328847_1_alg».proof.Proof.Gen.KernelIdeal.Skeleton
import proofs.«145620_j876173328847_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KVal

open Cert.KernelIdeal Cert.KernelIdeal.Gen Idealize.ShloMosaic Idealize.ShloMosaic.TcCoe Idealize.ShloMosaic.ValueIdx Idealize.SL.Sem

/-! ## The first layer's contraction, axis by axis

  The dimension record contracts the left operand's axis 1 against the right operand's axis 0 and has no batch axis:
  at output index `i` and contraction index `c` the left operand is read at `(i 0, c)` and the right one at `(c, i 1)`. -/

/-- The left operand's row is the output's row. -/
theorem lhsIdx_layer1_0 (i : S2000x256.Idx) (c : Cert.KernelIdeal.dot_S2000x128_S128x256_S2000x256_1_0_0_1_n_n.contr.Idx) :
    (Cert.KernelIdeal.dot_S2000x128_S128x256_S2000x256_1_0_0_1_n_n.lhsIdx i c 0).val = (i 0).val := by
  unfold DotDims.lhsIdx
  rw [dif_neg (show ¬(0 : Fin S2000x128.rank) ∈ Cert.KernelIdeal.dot_S2000x128_S128x256_S2000x256_1_0_0_1_n_n.lhsBatch by decide), dif_pos (show (0 : Fin S2000x128.rank) ∈ Cert.KernelIdeal.dot_S2000x128_S128x256_S2000x256_1_0_0_1_n_n.lhsNonContracting by decide)]
  rfl

/-- The left operand's column is the contracted coordinate. -/
theorem lhsIdx_layer1_1 (i : S2000x256.Idx) (c : Cert.KernelIdeal.dot_S2000x128_S128x256_S2000x256_1_0_0_1_n_n.contr.Idx) :
    (Cert.KernelIdeal.dot_S2000x128_S128x256_S2000x256_1_0_0_1_n_n.lhsIdx i c 1).val = (c ⟨0, by decide⟩).val :=
  Cert.KernelIdeal.dot_S2000x128_S128x256_S2000x256_1_0_0_1_n_n.lhsIdx_val_of_single rfl i c

/-- The right operand's row is the contracted coordinate. -/
theorem rhsIdx_layer1_0 (i : S2000x256.Idx) (c : Cert.KernelIdeal.dot_S2000x128_S128x256_S2000x256_1_0_0_1_n_n.contr.Idx) :
    (Cert.KernelIdeal.dot_S2000x128_S128x256_S2000x256_1_0_0_1_n_n.rhsIdx i c 0).val = (c ⟨0, by decide⟩).val :=
  Cert.KernelIdeal.dot_S2000x128_S128x256_S2000x256_1_0_0_1_n_n.rhsIdx_val_of_single rfl i c

/-- The right operand's column is the output's column. -/
theorem rhsIdx_layer1_1 (i : S2000x256.Idx) (c : Cert.KernelIdeal.dot_S2000x128_S128x256_S2000x256_1_0_0_1_n_n.contr.Idx) :
    (Cert.KernelIdeal.dot_S2000x128_S128x256_S2000x256_1_0_0_1_n_n.rhsIdx i c 1).val = (i 1).val := by
  unfold DotDims.rhsIdx
  rw [dif_neg (show ¬(1 : Fin S128x256.rank) ∈ Cert.KernelIdeal.dot_S2000x128_S128x256_S2000x256_1_0_0_1_n_n.rhsBatch by decide), dif_pos (show (1 : Fin S128x256.rank) ∈ Cert.KernelIdeal.dot_S2000x128_S128x256_S2000x256_1_0_0_1_n_n.rhsNonContracting by decide)]
  rfl

/-- A first-layer matrix product into the zero accumulator, read at `(p, q)`: the sum over the 128 contracted entries
    of row `p` of the left operand against column `q` of the right one. -/
theorem matmul_layer1_apply {φ₁ φ₂ : FTy} (l : FVec Ideal S2000x128 φ₁) (r : FVec Ideal S128x256 φ₂) (p : Fin 2000) (q : Fin 256) :
    matmul (F := Ideal) Cert.KernelIdeal.dot_S2000x128_S128x256_S2000x256_1_0_0_1_n_n none l r
        (constant (F := Ideal) S2000x256 .f32 0x00000000#32) (ix2 p q)
      = ∑ k : Fin 128, l (ix2 p k) * r (ix2 k q) := by
  simp only [matmul]
  rw [Ideal.matmul_constant_zero_apply, ← Equiv.sum_comp (contrEquiv1 Cert.KernelIdeal.dot_S2000x128_S128x256_S2000x256_1_0_0_1_n_n 128 rfl rfl).symm]
  refine Finset.sum_congr rfl fun k _ => ?_
  have hk := contrEquiv1_symm_val Cert.KernelIdeal.dot_S2000x128_S128x256_S2000x256_1_0_0_1_n_n 128 rfl rfl k
  have el : Cert.KernelIdeal.dot_S2000x128_S128x256_S2000x256_1_0_0_1_n_n.lhsIdx (ix2 p q) ((contrEquiv1 Cert.KernelIdeal.dot_S2000x128_S128x256_S2000x256_1_0_0_1_n_n 128 rfl rfl).symm k) = ix2 p k := funext fun a => Fin.ext (by
    match a with
    | ⟨0, _⟩ => exact lhsIdx_layer1_0 _ _
    | ⟨1, _⟩ => exact (lhsIdx_layer1_1 _ _).trans hk)
  have er : Cert.KernelIdeal.dot_S2000x128_S128x256_S2000x256_1_0_0_1_n_n.rhsIdx (ix2 p q) ((contrEquiv1 Cert.KernelIdeal.dot_S2000x128_S128x256_S2000x256_1_0_0_1_n_n 128 rfl rfl).symm k) = ix2 k q := funext fun a => Fin.ext (by
    match a with
    | ⟨0, _⟩ => exact (rhsIdx_layer1_0 _ _).trans hk
    | ⟨1, _⟩ => exact rhsIdx_layer1_1 _ _)
  rw [el, er]

/-- The first layer's stored value at `(p, q)` of a block, from the five loaded blocks. -/
theorem k0_pay1_apply (a x : Vec Ideal S2000x128 .f32) (wl wr : Vec Ideal S128x256 .f32) (b : Vec Ideal S1x256 .f32)
    (p : Fin 2000) (q : Fin 256) :
    k0_pay1 (F := Ideal) a x wl wr b (ix2 p q)
      = Sage.relu (Sage.lin (fun k : Fin 128 => a (ix2 p k)) (fun k => x (ix2 p k)) (fun k => wl (ix2 k q))
          (fun k => wr (ix2 k q)) (b (ix2 (0 : Fin 1) q))) := by
  unfold k0_pay1
  rw [maximumf_apply, addf_apply, addf_apply, matmul_layer1_apply, matmul_layer1_apply, broadcastTo_1b_ab_apply]
  simp only [shapeCast_self, truncf_apply, broadcast_apply]
  rfl

end Cert.KernelIdeal.KVal

end
-- ==== Proof.K1Arr.lean ====
/-
  The first region's result array after its fifty grid points. Point `t` writes back rows 2000·t … 2000·t + 1999; at
  row `p` of its block it has read row 2000·t + p of the aggregated array and of the nodes' own features, the two weight
  matrices and the bias whole. So every block is the restriction of ONE whole-array function — layer 1 of the arrays as
  the region finds them —, the fifty blocks tile the 100000 rows, and the array ends at that function.
-/
import proofs.«145620_j876173328847_1_alg».proof.Proof.Gen.KernelIdeal.Frame
import proofs.«145620_j876173328847_1_alg».proof.Proof.Spec
import proofs.«145620_j876173328847_1_alg».proof.Proof.K1Pay
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KVal

open Cert.KernelIdeal Cert.KernelIdeal.Gen Idealize.ShloMosaic Idealize.ShloMosaic.TcCoe Idealize.ShloMosaic.ValueIdx Idealize.SL.Sem

-- the TensorCore's buffer contents when the region is entered: any
variable (V : (c : Dev nD) → (b : Ref sig .tc) → Buf (Elt Ideal) ((c : Thread nD τ).loc b))

/-- The zero offsets of the body's whole-buffer rectangles, as a constant function. -/
theorem zero_offsets0 : (![0, 0] : Fin 2 → Nat) = fun _ => 0 := funext fun a => by fin_cases a <;> rfl

/-- The region's index maps over its fifty points: the row-blocked windows (aggregate, features, result) sit at block
    row `t`, block column 0; the two weight matrices and the bias row always at block (0, 0). -/
theorem index_maps0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s block of the aggregated array is row `2000·t + p` of the array. -/
theorem agg_block0 (c : Dev nD) (t : Fin cfg0.N) (p : Fin 2000) (k : Fin 128) (r : Fin 100000)
    (hr : r.val = 2000 * t.val + p.val) :
    (iblk0 V c 0 t : Vec Ideal S2000x128 .f32) (ix2 p k)
      = (V c main_v18 : S100000x128.Idx → Elt Ideal .f32) (ix2 r k) := by
  obtain ⟨e0, e1, -⟩ := index_maps0 t
  unfold iblk0
  rw [View.read_apply]
  show V c main_v18 _ = V c main_v18 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- Row `p` of point `t`'s block of the nodes' own features is row `2000·t + p` of the array. -/
theorem self_block0 (c : Dev nD) (t : Fin cfg0.N) (p : Fin 2000) (k : Fin 128) (r : Fin 100000)
    (hr : r.val = 2000 * t.val + p.val) :
    (iblk0 V c 1 t : Vec Ideal S2000x128 .f32) (ix2 p k)
      = (V c main_v19 : S100000x128.Idx → Elt Ideal .f32) (ix2 r k) := by
  obtain ⟨-, -, e0, e1, -⟩ := index_maps0 t
  unfold iblk0
  rw [View.read_apply]
  show V c main_v19 _ = V c main_v19 _
  congr 1
  funext a
  apply Fin.ext
  match a with
  | ⟨0, _⟩ => show win0_1.index t (0 : Fin 2) * 2000 + 1 * p.val = r.val; rw [e0, hr]; omega
  | ⟨1, _⟩ => show win0_1.index t (1 : Fin 2) * 128 + 1 * k.val = k.val; rw [e1]; omega

/-- The left weight matrix's one block is the matrix. -/
theorem wl_block0 (c : Dev nD) (t : Fin cfg0.N) :
    (iblk0 V c 2 t : Vec Ideal S128x256 .f32) = (V c main_v20 : S128x256.Idx → Elt Ideal .f32) := by
  obtain ⟨-, -, -, -, e0, e1, -⟩ := index_maps0 t
  funext x
  unfold iblk0
  rw [View.read_apply]
  show V c main_v20 _ = V c main_v20 x
  congr 1
  funext a
  apply Fin.ext
  match a with
  | ⟨0, _⟩ => show win0_2.index t (0 : Fin 2) * 128 + 1 * (x 0).val = (x 0).val; rw [e0]; omega
  | ⟨1, _⟩ => show win0_2.index t (1 : Fin 2) * 256 + 1 * (x 1).val = (x 1).val; rw [e1]; omega

/-- The bias row's one block is the row. -/
theorem bias_block0 (c : Dev nD) (t : Fin cfg0.N) :
    (iblk0 V c 3 t : Vec Ideal S1x256 .f32) = (V c main_v22 : S1x256.Idx → Elt Ideal .f32) := by
  obtain ⟨-, -, -, -, -, -, e0, e1, -⟩ := index_maps0 t
  funext x
  unfold iblk0
  rw [View.read_apply]
  show V c main_v22 _ = V c main_v22 x
  congr 1
  funext a
  apply Fin.ext
  match a with
  | ⟨0, _⟩ => show win0_3.index t (0 : Fin 2) * 1 + 1 * (x 0).val = (x 0).val; rw [e0]; omega
  | ⟨1, _⟩ => show win0_3.index t (1 : Fin 2) * 256 + 1 * (x 1).val = (x 1).val; rw [e1]; omega

/-- The right weight matrix's one block is the matrix. -/
theorem wr_block0 (c : Dev nD) (t : Fin cfg0.N) :
    (iblk0 V c 4 t : Vec Ideal S128x256 .f32) = (V c main_v21 : S128x256.Idx → Elt Ideal .f32) := by
  obtain ⟨-, -, -, -, -, -, -, -, e0, e1, -⟩ := index_maps0 t
  funext x
  unfold iblk0
  rw [View.read_apply]
  show V c main_v21 _ = V c main_v21 x
  congr 1
  funext a
  apply Fin.ext
  match a with
  | ⟨0, _⟩ => show win0_4.index t (0 : Fin 2) * 128 + 1 * (x 0).val = (x 0).val; rw [e0]; omega
  | ⟨1, _⟩ => show win0_4.index t (1 : Fin 2) * 256 + 1 * (x 1).val = (x 1).val; rw [e1]; omega

/-- What point `t` writes back is its block of layer 1 of the arrays the region was entered with. -/
theorem flushed_layer1 (c : Dev nD) (t : Fin cfg0.N) :
    (dat0 (F := Ideal) V c).flushed 5 t
      = ((cfg0.win 5).blk t).view.read (Elt Ideal)
          (Sage.layer1 (V c main_v18) (V c main_v19) (V c main_v20) (V c main_v22) (V c main_v21)) := by
  show (cfg0.win 5).cut (grid0.coords t) ((dat0 (F := Ideal) V c).after 5 t) = _
  rw [after0_5]
  unfold out0_5
  rw [View.canon_unit_zero zero_offsets0]
  simp only [View.ld_unit_zero (S := S2000x128) zero_offsets0, View.ld_unit_zero (S := S128x256) zero_offsets0,
    View.ld_unit_zero (S := S1x256) zero_offsets0]
  rw [wl_block0, bias_block0, wr_block0]
  funext j
  obtain ⟨p, q, rfl⟩ : ∃ (p : Fin 2000) (q : Fin 256), j = ix2 p q := ⟨j 0, j 1, eq_ix2 j⟩
  obtain ⟨-, -, -, -, -, -, -, -, -, -, e0, e1⟩ := index_maps0 t
  have ht : t.val < grid0.N := t.isLt
  rw [N_0] at ht
  have hemb : ((cfg0.win 5).blk t).view.emb (ix2 p q)
      = (ix2 (⟨2000 * t.val + p.val, by omega⟩ : Fin 100000) q : S100000x256.Idx) := by
    funext a; apply Fin.ext
    match a with
    | ⟨0, _⟩ => show win0_5.index t (0 : Fin 2) * 2000 + 1 * p.val = 2000 * t.val + p.val; rw [e0]; omega
    | ⟨1, _⟩ => show win0_5.index t (1 : Fin 2) * 256 + 1 * q.val = q.val; rw [e1]; omega
  show k0_pay1 (F := Ideal) (iblk0 V c 0 t) (iblk0 V c 1 t) (V c main_v20) (V c main_v21) (V c main_v22) (ix2 p q)
    = Sage.layer1 (V c main_v18) (V c main_v19) (V c main_v20) (V c main_v22) (V c main_v21)
        (((cfg0.win 5).blk t).view.emb (ix2 p q))
  rw [hemb, Sage.layer1_ix2, k0_pay1_apply]
  unfold Sage.layer1At
  have ha := fun k : Fin 128 => agg_block0 V c t p k ⟨2000 * t.val + p.val, by omega⟩ rfl
  have hx := fun k : Fin 128 => self_block0 V c t p k ⟨2000 * t.val + p.val, by omega⟩ rfl
  simp only [ha, hx]

/-- An index of the result array is in point `t`'s block iff each coordinate is in the block's range on its axis. -/
theorem mem_block0 (t : Fin cfg0.N) (i : S100000x256.Idx) :
    i ∈ ((cfg0.win 5).blk t).view.set
      ↔ ∀ a : Fin 2, win0_5.index t a * S2000x256.size a ≤ (i a).val
          ∧ (i a).val < win0_5.index t a * S2000x256.size a + S2000x256.size a := by
  show i ∈ ((View.whole main_v23).slice (win0_5.rect t)).set ↔ _
  rw [View.set_slice_whole, Rect.mem_set_unit]
  exact Iff.rfl

/-- The fifty blocks tile the result array: row `r` lies in the block of point `r / 2000`. -/
theorem covered0 (i : S100000x256.Idx) :
    ∃ t : Fin cfg0.N, (cfg0.win 5).flush t = true ∧ i ∈ ((cfg0.win 5).blk t).view.set := by
  have hi0 : (i 0).val < 100000 := idx2_lt0 i
  have hi1 : (i 1).val < 256 := idx2_lt1 i
  have hN : grid0.N = 50 := N_0
  obtain ⟨t, htv⟩ : ∃ t : Fin cfg0.N, t.val = (i 0).val / 2000 :=
    ⟨⟨(i 0).val / 2000, by show _ < grid0.N; rw [hN]; omega⟩, rfl⟩
  obtain ⟨-, -, -, -, -, -, -, -, -, -, e0, e1⟩ := index_maps0 t
  refine ⟨t, flush0_5 t, ?_⟩
  rw [mem_block0]
  intro a
  match a with
  | ⟨0, _⟩ =>
    show win0_5.index t (0 : Fin 2) * 2000 ≤ (i 0).val ∧ (i 0).val < win0_5.index t (0 : Fin 2) * 2000 + 2000
    rw [e0, htv]; omega
  | ⟨1, _⟩ =>
    show win0_5.index t (1 : Fin 2) * 256 ≤ (i 1).val ∧ (i 1).val < win0_5.index t (1 : Fin 2) * 256 + 256
    rw [e1]; omega

/-- After region 0 its result array is layer 1 of the arrays the region was entered with. -/
theorem final0 (c : Dev nD) :
    (dat0 (F := Ideal) V c).arrAt 5 cfg0.N
      = Sage.layer1 (V c main_v18) (V c main_v19) (V c main_v20) (V c main_v22) (V c main_v21) :=
  (dat0 (F := Ideal) V c).arrAt_eq_of_cover 5
    (Sage.layer1 (V c main_v18) (V c main_v19) (V c main_v20) (V c main_v22) (V c main_v21))
    (fun t _ => flushed_layer1 V c t) (fun i => covered0 i)

end Cert.KernelIdeal.KVal

end
-- ==== Proof.LibColumn.lean ====
/-
  Column forms of the keep-dimension layout operations, read at an index: a vector of `a` entries reshaped to
  an `[a, 1]` column holds, in row `i`, entry `i`; and an `[a, 1]` column broadcast along the second axis to
  `[a, b]` holds, at `(p, c)`, the column's entry of row `p`, whatever `c`. (The row forms `[a] → [1, a]` and
  `[1, b] → [a, b]` are the library's `shapeCast_a_1a_apply` and `broadcastTo_1b_ab_apply`.) Stated for every
  extent and every element type.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.K2Pay.lean ====
/-
  The second layer's block, read at an entry. At row `p`, column `q` of a 2000-row block the body's stored value is the
  log-softmax, at `q`, of the row `c ↦ (∑ₖ a(p,k)·wl(k,c) + ∑ₖ x(p,k)·wr(k,c)) + b(0,c)`: the row's maximum is the lane
  reduction by `max` from the word of −∞, kept as a column and spread back over the row; the sum of exponentials is the lane
  reduction by `+`, whose accumulator is the word of zero.

  The steps. A product of a 2000×256 block with a 256×64 block into the zero splat is, at `(p, c)`, the sum over
  `k : Fin 256` of the left block at `(p, k)` times the right block at `(k, c)`: the contraction index has one axis, and
  the operand indices are read off axis by axis. Narrowing to bf16 and casting a shape to itself change nothing on the
  extended reals, and the bias row is spread down the rows, so the linear part at `(p, c)` is `Sage.lin` of row `p` and
  column `c`. A lane reduction at row `p` runs over the entries `(p, c)`, `c : Fin 64`: the index with `c` put back
  on axis 1 is `(p, c)` coordinate by coordinate. With these, a block `h` taken through the body's last eight operations
  is, at `(p, q)`, the log-softmax at `q` of `c ↦ h(p, c)`, whatever `h`.
-/
import proofs.«145620_j876173328847_1_alg».proof.Proof.Gen.KernelIdeal.Skeleton
import proofs.«145620_j876173328847_1_alg».proof.Proof.Spec
import proofs.«145620_j876173328847_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KVal

open Cert.KernelIdeal Cert.KernelIdeal.Gen Idealize.ShloMosaic Idealize.ShloMosaic.TcCoe Idealize.ShloMosaic.ValueIdx Idealize.SL.Sem

/-! ## The second layer's product, read at an entry -/

/-- The left operand's row coordinate is the output's row. -/
theorem lhs_layer2_0 (i : S2000x64.Idx) (q : Cert.KernelIdeal.dot_S2000x256_S256x64_S2000x64_1_0_0_1_n_n.contr.Idx) :
    (Cert.KernelIdeal.dot_S2000x256_S256x64_S2000x64_1_0_0_1_n_n.lhsIdx i q 0).val = (i 0).val := by
  unfold DotDims.lhsIdx
  rw [dif_neg (show ¬(0 : Fin S2000x256.rank) ∈ Cert.KernelIdeal.dot_S2000x256_S256x64_S2000x64_1_0_0_1_n_n.lhsBatch by decide), dif_pos (show (0 : Fin S2000x256.rank) ∈ Cert.KernelIdeal.dot_S2000x256_S256x64_S2000x64_1_0_0_1_n_n.lhsNonContracting by decide)]
  rfl
/-- The left operand's column coordinate is the contraction coordinate. -/
theorem lhs_layer2_1 (i : S2000x64.Idx) (q : Cert.KernelIdeal.dot_S2000x256_S256x64_S2000x64_1_0_0_1_n_n.contr.Idx) :
    (Cert.KernelIdeal.dot_S2000x256_S256x64_S2000x64_1_0_0_1_n_n.lhsIdx i q 1).val = (q ⟨0, by decide⟩).val :=
  Cert.KernelIdeal.dot_S2000x256_S256x64_S2000x64_1_0_0_1_n_n.lhsIdx_val_of_single rfl i q
/-- The right operand's row coordinate is the contraction coordinate. -/
theorem rhs_layer2_0 (i : S2000x64.Idx) (q : Cert.KernelIdeal.dot_S2000x256_S256x64_S2000x64_1_0_0_1_n_n.contr.Idx) :
    (Cert.KernelIdeal.dot_S2000x256_S256x64_S2000x64_1_0_0_1_n_n.rhsIdx i q 0).val = (q ⟨0, by decide⟩).val :=
  Cert.KernelIdeal.dot_S2000x256_S256x64_S2000x64_1_0_0_1_n_n.rhsIdx_val_of_single rfl i q
/-- The right operand's column coordinate is the output's column. -/
theorem rhs_layer2_1 (i : S2000x64.Idx) (q : Cert.KernelIdeal.dot_S2000x256_S256x64_S2000x64_1_0_0_1_n_n.contr.Idx) :
    (Cert.KernelIdeal.dot_S2000x256_S256x64_S2000x64_1_0_0_1_n_n.rhsIdx i q 1).val = (i 1).val := by
  unfold DotDims.rhsIdx
  rw [dif_neg (show ¬(1 : Fin S256x64.rank) ∈ Cert.KernelIdeal.dot_S2000x256_S256x64_S2000x64_1_0_0_1_n_n.rhsBatch by decide), dif_pos (show (1 : Fin S256x64.rank) ∈ Cert.KernelIdeal.dot_S2000x256_S256x64_S2000x64_1_0_0_1_n_n.rhsNonContracting by decide)]
  rfl

/-- A 2000×256 block times a 256×64 block, into the zero splat, at `(p, c)`: row `p` against column `c`. -/
theorem matmul_layer2_apply {φ₁ φ₂ : FTy} (l : FVec Ideal S2000x256 φ₁) (r : FVec Ideal S256x64 φ₂) (p : Fin 2000) (c : Fin 64) :
    matmul (F := Ideal) Cert.KernelIdeal.dot_S2000x256_S256x64_S2000x64_1_0_0_1_n_n none l r (constant (F := Ideal) S2000x64 .f32 0x00000000#32) (ix2 p c)
      = ∑ k : Fin 256, l (ix2 p k) * r (ix2 k c) := by
  refine (Ideal.matmul_constant_zero_apply Cert.KernelIdeal.dot_S2000x256_S256x64_S2000x64_1_0_0_1_n_n none l r (ix2 p c)).trans ?_
  rw [← Equiv.sum_comp (contrEquiv1 Cert.KernelIdeal.dot_S2000x256_S256x64_S2000x64_1_0_0_1_n_n 256 rfl rfl).symm]
  refine Finset.sum_congr rfl fun k _ => ?_
  have hk := contrEquiv1_symm_val Cert.KernelIdeal.dot_S2000x256_S256x64_S2000x64_1_0_0_1_n_n 256 rfl rfl k
  have el : Cert.KernelIdeal.dot_S2000x256_S256x64_S2000x64_1_0_0_1_n_n.lhsIdx (ix2 p c) ((contrEquiv1 Cert.KernelIdeal.dot_S2000x256_S256x64_S2000x64_1_0_0_1_n_n 256 rfl rfl).symm k) = ix2 p k := funext fun a => Fin.ext (by
    match a with
    | ⟨0, _⟩ => exact lhs_layer2_0 _ _
    | ⟨1, _⟩ => exact (lhs_layer2_1 _ _).trans hk)
  have er : Cert.KernelIdeal.dot_S2000x256_S256x64_S2000x64_1_0_0_1_n_n.rhsIdx (ix2 p c) ((contrEquiv1 Cert.KernelIdeal.dot_S2000x256_S256x64_S2000x64_1_0_0_1_n_n 256 rfl rfl).symm k) = ix2 k c := funext fun a => Fin.ext (by
    match a with
    | ⟨0, _⟩ => exact (rhs_layer2_0 _ _).trans hk
    | ⟨1, _⟩ => exact rhs_layer2_1 _ _)
  rw [el, er]

/-- The linear part of the second layer at `(p, c)`: the two products and the bias row's entry of column `c`. -/
theorem k1_lin_apply (a x : Vec Ideal S2000x256 .f32) (wl wr : Vec Ideal S256x64 .f32) (b : Vec Ideal S1x64 .f32)
    (p : Fin 2000) (c : Fin 64) :
    addf (addf
        (matmul (F := Ideal) Cert.KernelIdeal.dot_S2000x256_S256x64_S2000x64_1_0_0_1_n_n none
          (truncf .bf16 (shapeCast S2000x256 a shapeCasts_S2000x256_S2000x256) bitsLt_bf16_f32)
          (truncf .bf16 (shapeCast S256x64 wl shapeCasts_S256x64_S256x64) bitsLt_bf16_f32)
          (constant (F := Ideal) S2000x64 .f32 0x00000000#32))
        (matmul (F := Ideal) Cert.KernelIdeal.dot_S2000x256_S256x64_S2000x64_1_0_0_1_n_n none
          (truncf .bf16 (shapeCast S2000x256 x shapeCasts_S2000x256_S2000x256) bitsLt_bf16_f32)
          (truncf .bf16 (shapeCast S256x64 wr shapeCasts_S256x64_S256x64) bitsLt_bf16_f32)
          (constant (F := Ideal) S2000x64 .f32 0x00000000#32)))
      (broadcastTo S2000x64 (shapeCast S1x64 b shapeCasts_S1x64_S1x64) broadcasts_S1x64_S2000x64) (ix2 p c)
      = Sage.lin (fun k : Fin 256 => a (ix2 p k)) (fun k => x (ix2 p k))
          (fun k => wl (ix2 k c)) (fun k => wr (ix2 k c)) (b (ix2 (0 : Fin 1) c)) := by
  rw [addf_apply, addf_apply, matmul_layer2_apply, matmul_layer2_apply, broadcastTo_1b_ab_apply]
  simp only [shapeCast_self]
  rfl

/-! ## The two lane reductions at a row -/

/-- Row `p` with `c` put back on the reduced axis is the entry `(p, c)`. -/
theorem lift_row (p : Fin 2000) (c : Fin 64) :
    reduces_S2000x64_S2000.lift (ix1 p) c = ix2 p c :=
  funext fun a => Fin.ext (by
    match a with
    | ⟨0, _⟩ => rfl
    | ⟨1, _⟩ => rfl)

/-- The lane maximum at row `p` is the row's maximum, folded from the word of −∞. -/
theorem laneMax_apply (h : FVec Ideal S2000x64 .f32) (p : Fin 2000) :
    multiReduction (F := Ideal) .maximumf [1] S2000 h 0xFF800000#32 reduces_S2000x64_S2000 (.inl rfl) rfl (ix1 p)
      = Sage.rowMax (fun c : Fin 64 => h (ix2 p c)) := by
  refine (Ideal.multiReduction_maximumf_single h _ reduces_S2000x64_S2000 (.inl rfl) rfl (ix1 p)).trans ?_
  have e : (h ∘ reduces_S2000x64_S2000.lift (ix1 p)) = fun c : Fin 64 => h (ix2 p c) :=
    funext fun c => congrArg h (lift_row p c)
  rw [e]
  rfl

/-- The lane sum at row `p` is the sum of the row's entries. -/
theorem laneSum_apply (g : FVec Ideal S2000x64 .f32) (p : Fin 2000) :
    multiReduction (F := Ideal) .add [1] S2000 g 0x00000000#32 reduces_S2000x64_S2000 (.inl rfl) rfl (ix1 p)
      = ∑ c : Fin 64, g (ix2 p c) := by
  refine (Ideal.multiReduction_add_single g _ reduces_S2000x64_S2000 (.inl rfl) rfl (ix1 p)).trans ?_
  exact Finset.sum_congr rfl fun c _ => congrArg g (lift_row p c)

/-! ## From the linear part to the stored value -/

/-- Any 2000×64 block `h` taken through the row maximum, its subtraction, the exponentials' row sum, its logarithm and the
    last subtraction is, at `(p, q)`, the log-softmax at `q` of row `p` of `h`. -/
theorem logSoftmax_rows_apply (h : FVec Ideal S2000x64 .f32) (p : Fin 2000) (q : Fin 64) :
    subf
        (subf h (broadcastTo S2000x64 (shapeCast S2000x1
          (multiReduction (F := Ideal) .maximumf [1] S2000 h 0xFF800000#32 reduces_S2000x64_S2000 (.inl rfl) rfl)
          shapeCasts_S2000_S2000x1) broadcasts_S2000x1_S2000x64))
        (broadcastTo S2000x64 (log (shapeCast S2000x1
          (multiReduction (F := Ideal) .add [1] S2000
            (exp (subf h (broadcastTo S2000x64 (shapeCast S2000x1
              (multiReduction (F := Ideal) .maximumf [1] S2000 h 0xFF800000#32 reduces_S2000x64_S2000 (.inl rfl) rfl)
              shapeCasts_S2000_S2000x1) broadcasts_S2000x1_S2000x64)))
            0x00000000#32 reduces_S2000x64_S2000 (.inl rfl) rfl)
          shapeCasts_S2000_S2000x1)) broadcasts_S2000x1_S2000x64) (ix2 p q)
      = Sage.logSoftmax (fun c : Fin 64 => h (ix2 p c)) q := by
  have hm : ∀ c : Fin 64, (broadcastTo S2000x64 (shapeCast S2000x1
        (multiReduction (F := Ideal) .maximumf [1] S2000 h 0xFF800000#32 reduces_S2000x64_S2000 (.inl rfl) rfl)
        shapeCasts_S2000_S2000x1) broadcasts_S2000x1_S2000x64) (ix2 p c)
      = Sage.rowMax (fun c : Fin 64 => h (ix2 p c)) := fun c => by
    rw [Cert.LibColumn.broadcastTo_a1_ab_apply, Cert.LibColumn.shapeCast_a_a1_apply, laneMax_apply]
  rw [subf_apply, subf_apply, hm q, Cert.LibColumn.broadcastTo_a1_ab_apply]
  show _ - Ideal.log (shapeCast S2000x1 _ shapeCasts_S2000_S2000x1 (ix2 p (0 : Fin 1))) = _
  rw [Cert.LibColumn.shapeCast_a_a1_apply, laneSum_apply]
  unfold Sage.logSoftmax
  refine congrArg (fun s => (h (ix2 p q) - Sage.rowMax (fun c : Fin 64 => h (ix2 p c))) - Ideal.log s) ?_
  refine Finset.sum_congr rfl fun c _ => ?_
  show Ideal.exp (h (ix2 p c) - _) = _
  rw [hm c]

/-- The second layer's stored value at `(p, q)` of a block, from the five loaded blocks. -/
theorem k1_pay1_apply (a x : Vec Ideal S2000x256 .f32) (wl wr : Vec Ideal S256x64 .f32) (b : Vec Ideal S1x64 .f32)
    (p : Fin 2000) (q : Fin 64) :
    k1_pay1 (F := Ideal) a x wl wr b (ix2 p q)
      = Sage.logSoftmax (fun c : Fin 64 => Sage.lin (fun k : Fin 256 => a (ix2 p k)) (fun k => x (ix2 p k))
          (fun k => wl (ix2 k c)) (fun k => wr (ix2 k c)) (b (ix2 (0 : Fin 1) c))) q := by
  unfold k1_pay1
  refine (logSoftmax_rows_apply _ p q).trans ?_
  exact congrArg (fun h : Fin 64 → EReal => Sage.logSoftmax h q) (funext fun c => k1_lin_apply a x wl wr b p c)

end Cert.KernelIdeal.KVal

end
-- ==== Proof.K2Arr.lean ====
/-
  The second region's result array after its ten grid points. Point `t` writes back rows 2000·t … 2000·t + 1999; at
  row `p` of its block it has read row 2000·t + p of the second aggregate and of the first layer's leading rows, the two
  weight matrices and the bias whole. Every block is the restriction of ONE whole-array function — layer 2 of the arrays
  as the region finds them —, the ten blocks tile the 20000 rows, and the array ends at that function.
-/
import proofs.«145620_j876173328847_1_alg».proof.Proof.Gen.KernelIdeal.Frame
import proofs.«145620_j876173328847_1_alg».proof.Proof.Spec
import proofs.«145620_j876173328847_1_alg».proof.Proof.K2Pay
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KVal

open Cert.KernelIdeal Cert.KernelIdeal.Gen Idealize.ShloMosaic Idealize.ShloMosaic.TcCoe Idealize.ShloMosaic.ValueIdx Idealize.SL.Sem

-- the TensorCore's buffer contents when the region is entered: any
variable (V : (c : Dev nD) → (b : Ref sig .tc) → Buf (Elt Ideal) ((c : Thread nD τ).loc b))

/-- The zero offsets of the body's whole-buffer rectangles, as a constant function. -/
theorem zero_offsets1 : (![0, 0] : Fin 2 → Nat) = fun _ => 0 := funext fun a => by fin_cases a <;> rfl

/-- The region's index maps over its ten points: the row-blocked windows (second aggregate, first layer's rows, result)
    sit at block row `t`, block column 0; the two weight matrices and the bias row always at block (0, 0). -/
theorem index_maps1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of point `t`'s block of the second aggregate is row `2000·t + p` of the array. -/
theorem agg_block1 (c : Dev nD) (t : Fin cfg1.N) (p : Fin 2000) (k : Fin 256) (r : Fin 20000)
    (hr : r.val = 2000 * t.val + p.val) :
    (iblk1 V c 0 t : Vec Ideal S2000x256 .f32) (ix2 p k)
      = (V c main_v42 : S20000x256.Idx → Elt Ideal .f32) (ix2 r k) := by
  obtain ⟨e0, e1, -⟩ := index_maps1 t
  unfold iblk1
  rw [View.read_apply]
  show V c main_v42 _ = V c main_v42 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 256 + 1 * k.val = k.val; rw [e1]; omega

/-- Row `p` of point `t`'s block of the first layer's leading rows is row `2000·t + p` of the array. -/
theorem self_block1 (c : Dev nD) (t : Fin cfg1.N) (p : Fin 2000) (k : Fin 256) (r : Fin 20000)
    (hr : r.val = 2000 * t.val + p.val) :
    (iblk1 V c 1 t : Vec Ideal S2000x256 .f32) (ix2 p k)
      = (V c main_v43 : S20000x256.Idx → Elt Ideal .f32) (ix2 r k) := by
  obtain ⟨-, -, e0, e1, -⟩ := index_maps1 t
  unfold iblk1
  rw [View.read_apply]
  show V c main_v43 _ = V c main_v43 _
  congr 1
  funext a
  apply Fin.ext
  match a with
  | ⟨0, _⟩ => show win1_1.index t (0 : Fin 2) * 2000 + 1 * p.val = r.val; rw [e0, hr]; omega
  | ⟨1, _⟩ => show win1_1.index t (1 : Fin 2) * 256 + 1 * k.val = k.val; rw [e1]; omega

/-- The left weight matrix's one block is the matrix. -/
theorem wl_block1 (c : Dev nD) (t : Fin cfg1.N) :
    (iblk1 V c 2 t : Vec Ideal S256x64 .f32) = (V c main_v44 : S256x64.Idx → Elt Ideal .f32) := by
  obtain ⟨-, -, -, -, e0, e1, -⟩ := index_maps1 t
  funext x
  unfold iblk1
  rw [View.read_apply]
  show V c main_v44 _ = V c main_v44 x
  congr 1
  funext a
  apply Fin.ext
  match a with
  | ⟨0, _⟩ => show win1_2.index t (0 : Fin 2) * 256 + 1 * (x 0).val = (x 0).val; rw [e0]; omega
  | ⟨1, _⟩ => show win1_2.index t (1 : Fin 2) * 64 + 1 * (x 1).val = (x 1).val; rw [e1]; omega

/-- The bias row's one block is the row. -/
theorem bias_block1 (c : Dev nD) (t : Fin cfg1.N) :
    (iblk1 V c 3 t : Vec Ideal S1x64 .f32) = (V c main_v46 : S1x64.Idx → Elt Ideal .f32) := by
  obtain ⟨-, -, -, -, -, -, e0, e1, -⟩ := index_maps1 t
  funext x
  unfold iblk1
  rw [View.read_apply]
  show V c main_v46 _ = V c main_v46 x
  congr 1
  funext a
  apply Fin.ext
  match a with
  | ⟨0, _⟩ => show win1_3.index t (0 : Fin 2) * 1 + 1 * (x 0).val = (x 0).val; rw [e0]; omega
  | ⟨1, _⟩ => show win1_3.index t (1 : Fin 2) * 64 + 1 * (x 1).val = (x 1).val; rw [e1]; omega

/-- The right weight matrix's one block is the matrix. -/
theorem wr_block1 (c : Dev nD) (t : Fin cfg1.N) :
    (iblk1 V c 4 t : Vec Ideal S256x64 .f32) = (V c main_v45 : S256x64.Idx → Elt Ideal .f32) := by
  obtain ⟨-, -, -, -, -, -, -, -, e0, e1, -⟩ := index_maps1 t
  funext x
  unfold iblk1
  rw [View.read_apply]
  show V c main_v45 _ = V c main_v45 x
  congr 1
  funext a
  apply Fin.ext
  match a with
  | ⟨0, _⟩ => show win1_4.index t (0 : Fin 2) * 256 + 1 * (x 0).val = (x 0).val; rw [e0]; omega
  | ⟨1, _⟩ => show win1_4.index t (1 : Fin 2) * 64 + 1 * (x 1).val = (x 1).val; rw [e1]; omega

/-- What point `t` writes back is its block of layer 2 of the arrays the region was entered with. -/
theorem flushed_layer2 (c : Dev nD) (t : Fin cfg1.N) :
    (dat1 (F := Ideal) V c).flushed 5 t
      = ((cfg1.win 5).blk t).view.read (Elt Ideal)
          (Sage.layer2 (V c main_v42) (V c main_v43) (V c main_v44) (V c main_v46) (V c main_v45)) := by
  show (cfg1.win 5).cut (grid1.coords t) ((dat1 (F := Ideal) V c).after 5 t) = _
  rw [after1_5]
  unfold out1_5
  rw [View.canon_unit_zero zero_offsets1]
  simp only [View.ld_unit_zero (S := S2000x256) zero_offsets1, View.ld_unit_zero (S := S256x64) zero_offsets1,
    View.ld_unit_zero (S := S1x64) zero_offsets1]
  rw [wl_block1, bias_block1, wr_block1]
  funext j
  obtain ⟨p, q, rfl⟩ : ∃ (p : Fin 2000) (q : Fin 64), j = ix2 p q := ⟨j 0, j 1, eq_ix2 j⟩
  obtain ⟨-, -, -, -, -, -, -, -, -, -, e0, e1⟩ := index_maps1 t
  have ht : t.val < grid1.N := t.isLt
  rw [N_1] at ht
  have hemb : ((cfg1.win 5).blk t).view.emb (ix2 p q)
      = (ix2 (⟨2000 * t.val + p.val, by omega⟩ : Fin 20000) q : S20000x64.Idx) := by
    funext a; apply Fin.ext
    match a with
    | ⟨0, _⟩ => show win1_5.index t (0 : Fin 2) * 2000 + 1 * p.val = 2000 * t.val + p.val; rw [e0]; omega
    | ⟨1, _⟩ => show win1_5.index t (1 : Fin 2) * 64 + 1 * q.val = q.val; rw [e1]; omega
  show k1_pay1 (F := Ideal) (iblk1 V c 0 t) (iblk1 V c 1 t) (V c main_v44) (V c main_v45) (V c main_v46) (ix2 p q)
    = Sage.layer2 (V c main_v42) (V c main_v43) (V c main_v44) (V c main_v46) (V c main_v45)
        (((cfg1.win 5).blk t).view.emb (ix2 p q))
  rw [hemb, Sage.layer2_ix2, k1_pay1_apply]
  unfold Sage.layer2At
  have ha := fun k : Fin 256 => agg_block1 V c t p k ⟨2000 * t.val + p.val, by omega⟩ rfl
  have hx := fun k : Fin 256 => self_block1 V c t p k ⟨2000 * t.val + p.val, by omega⟩ rfl
  simp only [ha, hx]

/-- An index of the result array is in point `t`'s block iff each coordinate is in the block's range on its axis. -/
theorem mem_block1 (t : Fin cfg1.N) (i : S20000x64.Idx) :
    i ∈ ((cfg1.win 5).blk t).view.set
      ↔ ∀ a : Fin 2, win1_5.index t a * S2000x64.size a ≤ (i a).val
          ∧ (i a).val < win1_5.index t a * S2000x64.size a + S2000x64.size a := by
  show i ∈ ((View.whole main_v47).slice (win1_5.rect t)).set ↔ _
  rw [View.set_slice_whole, Rect.mem_set_unit]
  exact Iff.rfl

/-- The ten blocks tile the result array: row `r` lies in the block of point `r / 2000`. -/
theorem covered1 (i : S20000x64.Idx) :
    ∃ t : Fin cfg1.N, (cfg1.win 5).flush t = true ∧ i ∈ ((cfg1.win 5).blk t).view.set := by
  have hi0 : (i 0).val < 20000 := idx2_lt0 i
  have hi1 : (i 1).val < 64 := idx2_lt1 i
  have hN : grid1.N = 10 := N_1
  obtain ⟨t, htv⟩ : ∃ t : Fin cfg1.N, t.val = (i 0).val / 2000 :=
    ⟨⟨(i 0).val / 2000, by show _ < grid1.N; rw [hN]; omega⟩, rfl⟩
  obtain ⟨-, -, -, -, -, -, -, -, -, -, e0, e1⟩ := index_maps1 t
  refine ⟨t, flush1_5 t, ?_⟩
  rw [mem_block1]
  intro a
  match a with
  | ⟨0, _⟩ =>
    show win1_5.index t (0 : Fin 2) * 2000 ≤ (i 0).val ∧ (i 0).val < win1_5.index t (0 : Fin 2) * 2000 + 2000
    rw [e0, htv]; omega
  | ⟨1, _⟩ =>
    show win1_5.index t (1 : Fin 2) * 64 ≤ (i 1).val ∧ (i 1).val < win1_5.index t (1 : Fin 2) * 64 + 64
    rw [e1]; omega

/-- After region 1 its result array is layer 2 of the arrays the region was entered with. -/
theorem final1 (c : Dev nD) :
    (dat1 (F := Ideal) V c).arrAt 5 cfg1.N
      = Sage.layer2 (V c main_v42) (V c main_v43) (V c main_v44) (V c main_v46) (V c main_v45) :=
  (dat1 (F := Ideal) V c).arrAt_eq_of_cover 5
    (Sage.layer2 (V c main_v42) (V c main_v43) (V c main_v44) (V c main_v46) (V c main_v45))
    (fun t _ => flushed_layer2 V c t) (fun i => covered1 i)

end Cert.KernelIdeal.KVal

end
-- ==== Proof.RefL1.lean ====
/-
  The reference's first layer, read entry by entry. Its stage after the rectifier is, at row `r` and column `j`,
  `max (((∑ₖ agg(r,k)·Wlᵀ(k,j)) + b(j)) + ∑ₖ x(r,k)·Wrᵀ(k,j)) 0`: each `dot_general` is the plain sum over the 128
  contracted entries, the bias is spread over the rows, and the bias standing between the two products instead of after
  them is the same number (addition on the extended reals is commutative and associative). So the stage is layer 1 of
  the reference's own earlier stages: the aggregate, the leading rows of the features, the two transposed weight
  matrices and the bias as a row.
-/
import proofs.«145620_j876173328847_1_alg».proof.Proof.RefRead
import proofs.«145620_j876173328847_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.ReferenceIdeal.RefLayers

open Cert.ReferenceIdeal Cert.ReferenceIdeal.Gen Cert.ReferenceIdeal.ReadP Idealize.ShloMosaic Idealize.ShloMosaic.TcCoe Idealize.ShloMosaic.ValueIdx Idealize.SL.Sem

/-! ## The operand indices at an entry

  At output entry `(r, j)` and contracted position `k` a product reads its left operand at `(r, k)` and its right one at
  `(k, j)`; the bias spread over the rows is read at `(0, j)`. -/

theorem lidx_v20_ix2 (r : Fin 100000) (j : Fin 256) (k : Fin 128) : lidx_main_v20 (ix2 r j) k = ix2 r k :=
  funext fun a => Fin.ext (by match a with | ⟨0, _⟩ => rfl | ⟨1, _⟩ => rfl)

theorem ridx_v20_ix2 (r : Fin 100000) (j : Fin 256) (k : Fin 128) : ridx_main_v20 (ix2 r j) k = ix2 k j :=
  funext fun a => Fin.ext (by match a with | ⟨0, _⟩ => rfl | ⟨1, _⟩ => rfl)

theorem lidx_v26_ix2 (r : Fin 100000) (j : Fin 256) (k : Fin 128) : lidx_main_v26 (ix2 r j) k = ix2 r k :=
  funext fun a => Fin.ext (by match a with | ⟨0, _⟩ => rfl | ⟨1, _⟩ => rfl)

theorem ridx_v26_ix2 (r : Fin 100000) (j : Fin 256) (k : Fin 128) : ridx_main_v26 (ix2 r j) k = ix2 k j :=
  funext fun a => Fin.ext (by match a with | ⟨0, _⟩ => rfl | ⟨1, _⟩ => rfl)

theorem idx_v22_ix2 (r : Fin 100000) (j : Fin 256) : idx_main_v22 (ix2 r j) = ix2 (0 : Fin 1) j :=
  funext fun a => Fin.ext (by match a with | ⟨0, _⟩ => rfl | ⟨1, _⟩ => rfl)

/-- The reference's first-layer output is layer 1 of its aggregate, its sliced features, its transposed weights and its bias row. -/
theorem ref_layer1 (x0 : (⟨S200000x128, .f32⟩ : BufTy).Contents (Elt Ideal)) (x1 x2 : (⟨S1600000, .i32⟩ : BufTy).Contents (Elt Ideal))
    (x5 : (⟨S256x128, .f32⟩ : BufTy).Contents (Elt Ideal)) (x6 : (⟨S256, .f32⟩ : BufTy).Contents (Elt Ideal)) (x7 : (⟨S256x128, .f32⟩ : BufTy).Contents (Elt Ideal)) :
    val_main_v28 (F := Ideal) x0 x1 x2 x5 x6 x7
      = Sage.layer1 (val_main_v18 (F := Ideal) x0 x1 x2) (val_main_v24 (F := Ideal) x0) (val_main_v19 (F := Ideal) x5)
          (val_main_v21 (F := Ideal) x6) (val_main_v25 (F := Ideal) x7) := by
  funext i
  obtain ⟨r, j, rfl⟩ : ∃ (r : Fin 100000) (j : Fin 256), i = ix2 r j := ⟨i 0, i 1, eq_ix2 i⟩
  rw [Sage.layer1_ix2, val_main_v28_apply, val_main_v27_apply, val_main_v23_apply, val_main_v20_apply, val_main_v22_apply,
    val_main_v26_apply, val_main_call0_v0_apply, val_main_call0_cst_apply]
  generalize val_main_v18 (F := Ideal) x0 x1 x2 = A
  generalize val_main_v24 (F := Ideal) x0 = X
  generalize val_main_v19 (F := Ideal) x5 = Wl
  generalize val_main_v21 (F := Ideal) x6 = B
  generalize val_main_v25 (F := Ideal) x7 = Wr
  simp only [lidx_v20_ix2, ridx_v20_ix2, lidx_v26_ix2, ridx_v26_ix2, idx_v22_ix2, Ideal.maximumf_def, Ideal.addf_def, Ideal.ofBits_def]
  exact congrArg (fun v => max v (Ideal.ofBits .f32 0x00000000#32))
    (Sage.lin_bias_between (fun k : Fin 128 => A (ix2 r k)) (fun k => X (ix2 r k)) (fun k => Wl (ix2 k j))
      (fun k => Wr (ix2 k j)) (B (ix2 (0 : Fin 1) j)))

end Cert.ReferenceIdeal.RefLayers

end
-- ==== Proof.RefL2.lean ====
/-
  The reference's second layer, read entry by entry. Its pre-activation is, at row `r` and column `c`,
  `((∑ₖ agg₂(r,k)·Wlᵀ(k,c)) + b(c)) + ∑ₖ h₁(r,k)·Wrᵀ(k,c)`, and its result the log-softmax of that row: the row's maximum
  is the host's reduction by `max` from the word of −∞, once more maximised with that same word (which changes nothing),
  kept as a column and spread back over the row; the sum of exponentials is the host's reduction by `+` from the word of
  zero. So the result stage is layer 2 of the reference's own earlier stages.
-/
import proofs.«145620_j876173328847_1_alg».proof.Proof.RefRead
import proofs.«145620_j876173328847_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.ReferenceIdeal.RefLayers

open Cert.ReferenceIdeal Cert.ReferenceIdeal.Gen Cert.ReferenceIdeal.ReadP Idealize.ShloMosaic Idealize.ShloMosaic.TcCoe Idealize.ShloMosaic.ValueIdx Idealize.SL.Sem

/-! ## Where the stages read their operands, at an entry `(r, c)` -/

/-- The first product's left operand is read along row `r`. -/
theorem lidx_v49_ix2 (r : Fin 20000) (c : Fin 64) (k : Fin 256) : lidx_main_v49 (ix2 r c) k = ix2 r k :=
  funext fun a => Fin.ext (by
    match a with
    | ⟨0, _⟩ => rfl
    | ⟨1, _⟩ => rfl)
/-- The first product's right operand is read down column `c`. -/
theorem ridx_v49_ix2 (r : Fin 20000) (c : Fin 64) (k : Fin 256) : ridx_main_v49 (ix2 r c) k = ix2 k c :=
  funext fun a => Fin.ext (by
    match a with
    | ⟨0, _⟩ => rfl
    | ⟨1, _⟩ => rfl)
/-- The second product's left operand is read along row `r`. -/
theorem lidx_v55_ix2 (r : Fin 20000) (c : Fin 64) (k : Fin 256) : lidx_main_v55 (ix2 r c) k = ix2 r k :=
  funext fun a => Fin.ext (by
    match a with
    | ⟨0, _⟩ => rfl
    | ⟨1, _⟩ => rfl)
/-- The second product's right operand is read down column `c`. -/
theorem ridx_v55_ix2 (r : Fin 20000) (c : Fin 64) (k : Fin 256) : ridx_main_v55 (ix2 r c) k = ix2 k c :=
  funext fun a => Fin.ext (by
    match a with
    | ⟨0, _⟩ => rfl
    | ⟨1, _⟩ => rfl)
/-- The bias row spread down the rows is read at its entry of column `c`. -/
theorem idx_v51_ix2 (r : Fin 20000) (c : Fin 64) : idx_main_v51 (ix2 r c) = ix2 (0 : Fin 1) c :=
  funext fun a => Fin.ext (by
    match a with
    | ⟨0, _⟩ => rfl
    | ⟨1, _⟩ => rfl)
/-- A row's value kept as a column and spread over the row is read, at `(r, c)`, at `r`: the maximum's column … -/
theorem idx_v3_v4_ix2 (r : Fin 20000) (c : Fin 64) : idx_main_call1_v3 (idx_main_call1_v4 (ix2 r c)) = ix1 r :=
  funext fun a => Fin.ext (by
    match a with
    | ⟨0, _⟩ => rfl)
/-- … and the logarithm's. -/
theorem idx_v8_v10_ix2 (r : Fin 20000) (c : Fin 64) : idx_main_call1_v8 (idx_main_call1_v10 (ix2 r c)) = ix1 r :=
  funext fun a => Fin.ext (by
    match a with
    | ⟨0, _⟩ => rfl)
/-- The row sum reads the entries of row `r`. -/
theorem idx_v7_ix1 (r : Fin 20000) (c : Fin 64) : idx_main_call1_v7 (ix1 r) c = ix2 r c :=
  funext fun a => Fin.ext (by
    match a with
    | ⟨0, _⟩ => rfl
    | ⟨1, _⟩ => rfl)

section Stages

variable (x0 : (⟨S200000x128, .f32⟩ : BufTy).Contents (Elt Ideal)) (x1 x2 : (⟨S1600000, .i32⟩ : BufTy).Contents (Elt Ideal)) (x3 x4 : (⟨S320000, .i32⟩ : BufTy).Contents (Elt Ideal))
  (x5 : (⟨S256x128, .f32⟩ : BufTy).Contents (Elt Ideal)) (x6 : (⟨S256, .f32⟩ : BufTy).Contents (Elt Ideal)) (x7 : (⟨S256x128, .f32⟩ : BufTy).Contents (Elt Ideal))
  (x8 : (⟨S64x256, .f32⟩ : BufTy).Contents (Elt Ideal)) (x9 : (⟨S64, .f32⟩ : BufTy).Contents (Elt Ideal)) (x10 : (⟨S64x256, .f32⟩ : BufTy).Contents (Elt Ideal))

/-! ## The pre-activation at an entry -/

/-- The pre-activation at `(r, c)`: the aggregate's row against its weight column, the bias, then the node's own row
    against its weight column; the bias added between the two products or after them is one number. -/
theorem pre_apply (r : Fin 20000) (c : Fin 64) :
    val_main_v56 (F := Ideal) x0 x1 x2 x3 x4 x5 x6 x7 x8 x9 x10 (ix2 r c)
      = Sage.lin (fun k : Fin 256 => val_main_v47 (F := Ideal) x0 x1 x2 x3 x4 x5 x6 x7 (ix2 r k))
          (fun k => val_main_v53 (F := Ideal) x0 x1 x2 x5 x6 x7 (ix2 r k))
          (fun k => val_main_v48 (F := Ideal) x8 (ix2 k c)) (fun k => val_main_v54 (F := Ideal) x10 (ix2 k c))
          (val_main_v50 (F := Ideal) x9 (ix2 (0 : Fin 1) c)) := by
  rw [val_main_v56_apply, val_main_v52_apply, val_main_v49_apply, val_main_v51_apply, val_main_v55_apply, idx_v51_ix2]
  generalize val_main_v47 (F := Ideal) x0 x1 x2 x3 x4 x5 x6 x7 = A
  generalize val_main_v53 (F := Ideal) x0 x1 x2 x5 x6 x7 = X
  generalize val_main_v48 (F := Ideal) x8 = Wl
  generalize val_main_v50 (F := Ideal) x9 = B
  generalize val_main_v54 (F := Ideal) x10 = Wr
  have e1 : (∑ k : Fin 256, A (lidx_main_v49 (ix2 r c) k) * Wl (ridx_main_v49 (ix2 r c) k))
      = ∑ k : Fin 256, A (ix2 r k) * Wl (ix2 k c) :=
    Finset.sum_congr rfl fun k _ => by rw [lidx_v49_ix2, ridx_v49_ix2]
  have e2 : (∑ k : Fin 256, X (lidx_main_v55 (ix2 r c) k) * Wr (ridx_main_v55 (ix2 r c) k))
      = ∑ k : Fin 256, X (ix2 r k) * Wr (ix2 k c) :=
    Finset.sum_congr rfl fun k _ => by rw [lidx_v55_ix2, ridx_v55_ix2]
  rw [e1, e2]
  exact Sage.lin_bias_between (fun k : Fin 256 => A (ix2 r k)) (fun k => X (ix2 r k)) (fun k => Wl (ix2 k c))
    (fun k => Wr (ix2 k c)) (B (ix2 (0 : Fin 1) c))

/-! ## The row's maximum, the centred row and the sum of its exponentials -/

/-- The host's reduction by `max` from the word of −∞, maximised once more with that word, is at row `r` the maximum
    of the pre-activation's row `r`. -/
theorem rowMax_apply (r : Fin 20000) :
    val_main_call1_v2 (F := Ideal) x0 x1 x2 x3 x4 x5 x6 x7 x8 x9 x10 (ix1 r)
      = Sage.rowMax (fun c : Fin 64 => val_main_v56 (F := Ideal) x0 x1 x2 x3 x4 x5 x6 x7 x8 x9 x10 (ix2 r c)) := by
  rw [val_main_call1_v2_apply, val_main_call1_v1_apply, val_main_call1_cst_0_apply]
  unfold val_main_call1_v0
  generalize val_main_v56 (F := Ideal) x0 x1 x2 x3 x4 x5 x6 x7 x8 x9 x10 = y
  have hR : S20000x64.Reduces [1] S20000 := by decide
  have hfold := Host.reduce_eq_fold_single (α := EReal) (s := S20000x64) (t := S20000) (a := (1 : Fin S20000x64.rank))
    (FloatOps.maximumf (F := Ideal) (φ := .f32)) y (val_main_call1_cst (F := Ideal)) reducesTo_S20000x64_S20000_d1 hR h_S_ (ix1 r)
  refine (congrArg (FloatOps.maximumf (F := Ideal) (φ := .f32) (FloatOps.ofBits .f32 0xFF800000#32)) hfold).trans ?_
  have hf : (y ∘ hR.lift (ix1 r)) = fun c : Fin 64 => y (ix2 r c) :=
    funext fun c => congrArg y (funext fun a => Fin.ext (by
      match a with
      | ⟨0, _⟩ => rfl
      | ⟨1, _⟩ => rfl))
  rw [hf]
  exact Sage.max_start_rowMax _

/-- The pre-activation less its row's maximum, at `(r, c)`. -/
theorem centred_apply (r : Fin 20000) (c : Fin 64) :
    val_main_call1_v5 (F := Ideal) x0 x1 x2 x3 x4 x5 x6 x7 x8 x9 x10 (ix2 r c)
      = val_main_v56 (F := Ideal) x0 x1 x2 x3 x4 x5 x6 x7 x8 x9 x10 (ix2 r c) - Sage.rowMax (fun c : Fin 64 => val_main_v56 (F := Ideal) x0 x1 x2 x3 x4 x5 x6 x7 x8 x9 x10 (ix2 r c)) := by
  rw [val_main_call1_v5_apply, val_main_call1_v4_apply, val_main_call1_v3_apply, idx_v3_v4_ix2, rowMax_apply]
  rfl

/-- The host's sum from the word of zero, at row `r`: the sum of the exponentials of the centred row. -/
theorem rowSum_apply (r : Fin 20000) :
    val_main_call1_v7 (F := Ideal) x0 x1 x2 x3 x4 x5 x6 x7 x8 x9 x10 (ix1 r)
      = ∑ c : Fin 64, Ideal.exp (val_main_v56 (F := Ideal) x0 x1 x2 x3 x4 x5 x6 x7 x8 x9 x10 (ix2 r c) - Sage.rowMax (fun c : Fin 64 => val_main_v56 (F := Ideal) x0 x1 x2 x3 x4 x5 x6 x7 x8 x9 x10 (ix2 r c))) := by
  rw [val_main_call1_v7_apply, val_main_call1_cst_1_apply]
  show Ideal.ofBits .f32 0x00000000#32 + _ = _
  rw [Ideal.ofBits_zero_f32, zero_add]
  refine Finset.sum_congr rfl fun c _ => ?_
  rw [idx_v7_ix1, val_main_call1_v6_apply, centred_apply, Ideal.hostUnary_exp_def]

/-- The result stage at `(r, j)` is the log-softmax, at `j`, of the pre-activation's row `r`. -/
theorem result_apply (r : Fin 20000) (j : Fin 64) :
    val_main_v57 (F := Ideal) x0 x1 x2 x3 x4 x5 x6 x7 x8 x9 x10 (ix2 r j)
      = Sage.logSoftmax (fun c : Fin 64 => val_main_v56 (F := Ideal) x0 x1 x2 x3 x4 x5 x6 x7 x8 x9 x10 (ix2 r c)) j := by
  rw [val_main_v57_apply, centred_apply, val_main_call1_v10_apply, val_main_call1_v9_apply, val_main_call1_v8_apply,
    idx_v8_v10_ix2, rowSum_apply, Ideal.hostUnary_log_def, Ideal.subf_def]
  unfold Sage.logSoftmax
  rfl

end Stages

/-- The reference's result is layer 2 of its second aggregate, its sliced first-layer output, its transposed weights and its bias row. -/
theorem ref_layer2 (x0 : (⟨S200000x128, .f32⟩ : BufTy).Contents (Elt Ideal)) (x1 x2 : (⟨S1600000, .i32⟩ : BufTy).Contents (Elt Ideal)) (x3 x4 : (⟨S320000, .i32⟩ : BufTy).Contents (Elt Ideal))
    (x5 : (⟨S256x128, .f32⟩ : BufTy).Contents (Elt Ideal)) (x6 : (⟨S256, .f32⟩ : BufTy).Contents (Elt Ideal)) (x7 : (⟨S256x128, .f32⟩ : BufTy).Contents (Elt Ideal))
    (x8 : (⟨S64x256, .f32⟩ : BufTy).Contents (Elt Ideal)) (x9 : (⟨S64, .f32⟩ : BufTy).Contents (Elt Ideal)) (x10 : (⟨S64x256, .f32⟩ : BufTy).Contents (Elt Ideal)) :
    val_main_v57 (F := Ideal) x0 x1 x2 x3 x4 x5 x6 x7 x8 x9 x10
      = Sage.layer2 (val_main_v47 (F := Ideal) x0 x1 x2 x3 x4 x5 x6 x7) (val_main_v53 (F := Ideal) x0 x1 x2 x5 x6 x7)
          (val_main_v48 (F := Ideal) x8) (val_main_v50 (F := Ideal) x9) (val_main_v54 (F := Ideal) x10) := by
  funext i
  obtain ⟨r, j, rfl⟩ : ∃ (r : Fin 20000) (j : Fin 64), i = ix2 r j := ⟨i 0, i 1, eq_ix2 i⟩
  rw [result_apply, Sage.layer2_ix2]
  unfold Sage.layer2At
  exact congrArg (fun h : Fin 64 → EReal => Sage.logSoftmax h j)
    (funext fun c => pre_apply x0 x1 x2 x3 x4 x5 x6 x7 x8 x9 x10 r c)

end Cert.ReferenceIdeal.RefLayers

end
-- ==== Proof.KGlue.lean ====
/-
  The kernel program's result as the reference's result stage.

  The buffer contents are followed through @main: the launch memory, the host operations before the first region, the
  first region, the host operations between the regions, the second region. At the first region's entry its five input
  arrays hold the reference's stages (the first aggregate, the nodes' own rows, the transposed weights, the bias row), so
  its result array — layer 1 of those — is the reference's first-layer output. No region and no host operation writes an
  argument, so the second host stretch finds the arguments as launched and the first-layer output in place, and leaves the
  reference's stages at the second region's inputs; its result array — layer 2 of those — is the reference's result.
-/
import proofs.«145620_j876173328847_1_alg».proof.Proof.KHost
import proofs.«145620_j876173328847_1_alg».proof.Proof.K1Arr
import proofs.«145620_j876173328847_1_alg».proof.Proof.K2Arr
import proofs.«145620_j876173328847_1_alg».proof.Proof.RefL1
import proofs.«145620_j876173328847_1_alg».proof.Proof.RefL2

noncomputable section

namespace Cert.KernelIdeal.KGlue

open Cert.KernelIdeal Cert.KernelIdeal.Gen Cert.ReferenceIdeal.ReadP
open Idealize.ShloMosaic Idealize.ShloMosaic.TcCoe Idealize.SL.Sem Idealize.ShloMosaic.StableHlo

variable (m : (ℓ : Loc nD τ sig) → Buf (Elt Ideal) ℓ) (ρ : Dev nD → PrngReg)

/-- The first region leaves the reference's first-layer output in its result array. -/
theorem region0_result (c : Dev nD) :
    W2 m ρ c (Proc.devRef .tc main_v23)
      = val_main_v28 (F := Ideal) (W0 m ρ c (Proc.devRef .tc main_arg0)) (W0 m ρ c (Proc.devRef .tc main_arg1)) (W0 m ρ c (Proc.devRef .tc main_arg2)) (W0 m ρ c (Proc.devRef .tc main_arg5)) (W0 m ρ c (Proc.devRef .tc main_arg6)) (W0 m ρ c (Proc.devRef .tc main_arg7)) := by
  refine (W2_arr m ρ c 5).trans ?_
  rw [KVal.final0 (V1 m ρ) c]
  have e18 : V1 m ρ c main_v18 = _ := KHost.entry0_agg (W0 m ρ c)
  have e19 : V1 m ρ c main_v19 = _ := KHost.entry0_self (W0 m ρ c)
  have e20 : V1 m ρ c main_v20 = _ := KHost.entry0_wl (W0 m ρ c)
  have e22 : V1 m ρ c main_v22 = _ := KHost.entry0_bias (W0 m ρ c)
  have e21 : V1 m ρ c main_v21 = _ := KHost.entry0_wr (W0 m ρ c)
  rw [e18, e19, e20, e22, e21]
  exact (Cert.ReferenceIdeal.RefLayers.ref_layer1 _ _ _ _ _ _).symm

/-- An argument's buffer at the first region's exit is as launched: the region writes only its result array, the host
    operations before it none of the arguments. -/
theorem W2_arg3 (c : Dev nD) : W2 m ρ c (Proc.devRef .tc main_arg3) = (W0 m ρ c (Proc.devRef .tc main_arg3)) :=
  (W2_of_ne m ρ c main_arg3 (by decide)).trans (KHost.keep0_arg3 (W0 m ρ c))
theorem W2_arg4 (c : Dev nD) : W2 m ρ c (Proc.devRef .tc main_arg4) = (W0 m ρ c (Proc.devRef .tc main_arg4)) :=
  (W2_of_ne m ρ c main_arg4 (by decide)).trans (KHost.keep0_arg4 (W0 m ρ c))
theorem W2_arg8 (c : Dev nD) : W2 m ρ c (Proc.devRef .tc main_arg8) = (W0 m ρ c (Proc.devRef .tc main_arg8)) :=
  (W2_of_ne m ρ c main_arg8 (by decide)).trans (KHost.keep0_arg8 (W0 m ρ c))
theorem W2_arg9 (c : Dev nD) : W2 m ρ c (Proc.devRef .tc main_arg9) = (W0 m ρ c (Proc.devRef .tc main_arg9)) :=
  (W2_of_ne m ρ c main_arg9 (by decide)).trans (KHost.keep0_arg9 (W0 m ρ c))
theorem W2_arg10 (c : Dev nD) : W2 m ρ c (Proc.devRef .tc main_arg10) = (W0 m ρ c (Proc.devRef .tc main_arg10)) :=
  (W2_of_ne m ρ c main_arg10 (by decide)).trans (KHost.keep0_arg10 (W0 m ρ c))

/-- The second region leaves the reference's result in its result array. -/
theorem result_stage (c : Dev nD) :
    W4 m ρ c (Proc.devRef .tc main_v47)
      = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 5).trans ?_
  rw [KVal.final1 (V3 m ρ) c]
  have e42 : V3 m ρ c main_v42 = _ :=
    KHost.entry1_agg (W2 m ρ c) _ _ _ _ _ _ _ _ (region0_result m ρ c) (W2_arg3 m ρ c) (W2_arg4 m ρ c)
  have e43 : V3 m ρ c main_v43 = _ := KHost.entry1_self (W2 m ρ c) _ _ _ _ _ _ (region0_result m ρ c)
  have e44 : V3 m ρ c main_v44 = _ := KHost.entry1_wl (W2 m ρ c)
  have e46 : V3 m ρ c main_v46 = _ := KHost.entry1_bias (W2 m ρ c)
  have e45 : V3 m ρ c main_v45 = _ := KHost.entry1_wr (W2 m ρ c)
  rw [e42, e43, e44, e46, e45, W2_arg8 m ρ c, W2_arg9 m ρ c, W2_arg10 m ρ c]
  exact (Cert.ReferenceIdeal.RefLayers.ref_layer2 _ _ _ _ _ _ _ _ _ _ _).symm

end Cert.KernelIdeal.KGlue

end
-- ==== Proof.RefVal.lean ====
/-
  The reference's result, read off its eighty-six host operations in three stretches.

  The composed term of the result repeats whatever is read twice — the first layer's output (by a gather and by a slice),
  the second layer's pre-activation and its shifted row (each by the log-softmax's two passes) —, so it is never formed whole.
  Instead the operations are cut where a value is reused: operations 1–37 end at the first layer's output, 38–71 at the
  second layer's pre-activation, 72–86 at the result (these last in three pieces, so that the row maxima — a reduction over
  the whole array — are compared as a name and never opened). Over ANY starting contents, a stretch takes the stage it starts from
  to the stage it ends at (each stage a function of @main's arguments, one operation at a time: the stage functions of the
  reference's read-at-an-index module), and running a list is running its two halves one after the other. The arguments'
  buffers are written by no operation, so each stretch finds them as launched.
-/
import proofs.«145620_j876173328847_1_alg».proof.Proof.RefRead
import Idealize.ShloMosaic.Lib.StableHlo.Run

noncomputable section

namespace Cert.ReferenceIdeal.RefVal

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Running a concatenation is running its halves one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- So a list run from `V` is its tail from position `n` run from what its first `n` operations leave. -/
theorem after_split (l : List (HloOp τ sig (Elt F))) (n : ℕ) (V : Valuation τ sig (Elt F)) :
    after l V = after (l.drop n) (after (l.take n) V) := by
  rw [← after_append, List.take_append_drop]

/-- Operations 1–37: the first layer's output. -/
abbrev stretch1 : List (HloOp τ sig (Elt F)) := (ops (F := F)).take 37
/-- Operations 38–71: the second aggregate and the second layer's pre-activation. -/
abbrev stretch2 : List (HloOp τ sig (Elt F)) := ((ops (F := F)).drop 37).take 34
/-- Operations 72–86: the log-softmax. -/
abbrev stretch3 : List (HloOp τ sig (Elt F)) := ((ops (F := F)).drop 37).drop 34

theorem ops_eq : after (ops (F := F)) = fun V => after stretch3 (after stretch2 (after stretch1 V)) := by
  funext V
  rw [after_split ops 37 V, after_split ((ops (F := F)).drop 37) 34]

/-- Operations 1–37 take any contents to the first layer's output stage of the arguments they find. -/
theorem stretch1_v28 (V : Valuation τ sig (Elt F)) :
    after (stretch1 (F := F)) V (Proc.devRef .tc main_v28)
      = val_main_v28 (F := F) (V (Proc.devRef .tc main_arg0)) (V (Proc.devRef .tc main_arg1)) (V (Proc.devRef .tc main_arg2)) (V (Proc.devRef .tc main_arg5)) (V (Proc.devRef .tc main_arg6)) (V (Proc.devRef .tc main_arg7)) := by
  simp only [stretch1, ops, List.take_succ_cons, List.take_zero]
  after_results_simp
  rfl

/-- No operation of the first stretch writes argument 3's buffer. -/
theorem stretch1_arg3 (V : Valuation τ sig (Elt F)) :
    after (stretch1 (F := F)) V (Proc.devRef .tc main_arg3) = V (Proc.devRef .tc main_arg3) := by
  simp only [stretch1, ops, List.take_succ_cons, List.take_zero]
  after_results_simp

/-- No operation of the first stretch writes argument 4's buffer. -/
theorem stretch1_arg4 (V : Valuation τ sig (Elt F)) :
    after (stretch1 (F := F)) V (Proc.devRef .tc main_arg4) = V (Proc.devRef .tc main_arg4) := by
  simp only [stretch1, ops, List.take_succ_cons, List.take_zero]
  after_results_simp

/-- No operation of the first stretch writes argument 8's buffer. -/
theorem stretch1_arg8 (V : Valuation τ sig (Elt F)) :
    after (stretch1 (F := F)) V (Proc.devRef .tc main_arg8) = V (Proc.devRef .tc main_arg8) := by
  simp only [stretch1, ops, List.take_succ_cons, List.take_zero]
  after_results_simp

/-- No operation of the first stretch writes argument 9's buffer. -/
theorem stretch1_arg9 (V : Valuation τ sig (Elt F)) :
    after (stretch1 (F := F)) V (Proc.devRef .tc main_arg9) = V (Proc.devRef .tc main_arg9) := by
  simp only [stretch1, ops, List.take_succ_cons, List.take_zero]
  after_results_simp

/-- No operation of the first stretch writes argument 10's buffer. -/
theorem stretch1_arg10 (V : Valuation τ sig (Elt F)) :
    after (stretch1 (F := F)) V (Proc.devRef .tc main_arg10) = V (Proc.devRef .tc main_arg10) := by
  simp only [stretch1, ops, List.take_succ_cons, List.take_zero]
  after_results_simp

/-- Operations 38–71, from contents that hold the first layer's output stage and the arguments they read, end with the
    second layer's pre-activation stage. -/
theorem stretch2_v56 (W : Valuation τ sig (Elt F)) (x0 : (⟨S200000x128, .f32⟩ : BufTy).Contents (Elt F)) (x1 x2 : (⟨S1600000, .i32⟩ : BufTy).Contents (Elt F)) (x3 x4 : (⟨S320000, .i32⟩ : BufTy).Contents (Elt F))
    (x5 : (⟨S256x128, .f32⟩ : BufTy).Contents (Elt F)) (x6 : (⟨S256, .f32⟩ : BufTy).Contents (Elt F)) (x7 : (⟨S256x128, .f32⟩ : BufTy).Contents (Elt F))
    (x8 : (⟨S64x256, .f32⟩ : BufTy).Contents (Elt F)) (x9 : (⟨S64, .f32⟩ : BufTy).Contents (Elt F)) (x10 : (⟨S64x256, .f32⟩ : BufTy).Contents (Elt F))
    (hH : W (Proc.devRef .tc main_v28) = val_main_v28 (F := F) x0 x1 x2 x5 x6 x7)
    (h3 : W (Proc.devRef .tc main_arg3) = x3) (h4 : W (Proc.devRef .tc main_arg4) = x4)
    (h8 : W (Proc.devRef .tc main_arg8) = x8) (h9 : W (Proc.devRef .tc main_arg9) = x9)
    (h10 : W (Proc.devRef .tc main_arg10) = x10) :
    after (stretch2 (F := F)) W (Proc.devRef .tc main_v56) = val_main_v56 (F := F) x0 x1 x2 x3 x4 x5 x6 x7 x8 x9 x10 := by
  simp only [stretch2, ops, List.drop_succ_cons, List.drop_zero, List.take_succ_cons, List.take_zero]
  after_results_simp
  rw [hH, h3, h4, h8, h9, h10]
  rfl

/-- Operations 72–86 in three pieces: the row maxima; their maximum once more with the word of −∞; the rest. -/
abbrev s31 : List (HloOp τ sig (Elt F)) := (stretch3 (F := F)).take 2
abbrev s32 : List (HloOp τ sig (Elt F)) := ((stretch3 (F := F)).drop 2).take 3
abbrev s33 : List (HloOp τ sig (Elt F)) := ((stretch3 (F := F)).drop 2).drop 3

/-- The row maxima: the reduction by `max` of the pre-activation from the word of −∞. The reduction is named before the
    two sides are compared, so that what is compared through the buffers' types is a name, never the reduction itself. -/
theorem s31_v0 (W : Valuation τ sig (Elt F)) (x0 : (⟨S200000x128, .f32⟩ : BufTy).Contents (Elt F)) (x1 x2 : (⟨S1600000, .i32⟩ : BufTy).Contents (Elt F)) (x3 x4 : (⟨S320000, .i32⟩ : BufTy).Contents (Elt F))
    (x5 : (⟨S256x128, .f32⟩ : BufTy).Contents (Elt F)) (x6 : (⟨S256, .f32⟩ : BufTy).Contents (Elt F)) (x7 : (⟨S256x128, .f32⟩ : BufTy).Contents (Elt F))
    (x8 : (⟨S64x256, .f32⟩ : BufTy).Contents (Elt F)) (x9 : (⟨S64, .f32⟩ : BufTy).Contents (Elt F)) (x10 : (⟨S64x256, .f32⟩ : BufTy).Contents (Elt F))
    (hX : W (Proc.devRef .tc main_v56) = val_main_v56 (F := F) x0 x1 x2 x3 x4 x5 x6 x7 x8 x9 x10) :
    after (s31 (F := F)) W (Proc.devRef .tc main_call1_v0) = val_main_call1_v0 (F := F) x0 x1 x2 x3 x4 x5 x6 x7 x8 x9 x10 := by
  simp only [s31, stretch3, ops, List.drop_succ_cons, List.drop_zero, List.take_succ_cons, List.take_zero]
  after_results_simp
  rw [hX]
  unfold val_main_call1_v0 val_main_call1_cst
  generalize val_main_v56 (F := F) x0 x1 x2 x3 x4 x5 x6 x7 x8 x9 x10 = X
  generalize constant (F := F) S_ .f32 0xFF800000#32 = k
  have e1 : ∀ p1 p2 p3, (TRef.of (T := ⟨S20000x64, .f32⟩) main_v56 p1 p2 p3).ofBuf (Val := Elt F) X = X := fun _ _ _ => rfl
  have e2 : ∀ p1 p2 p3, (TRef.of (T := ⟨S_, .f32⟩) main_call1_cst p1 p2 p3).ofBuf (Val := Elt F)
      ((TRef.of (T := ⟨S_, .f32⟩) main_call1_cst p1 p2 p3).toBuf k) = k := fun _ _ _ => rfl
  rw [e1, e2]
  generalize Host.reduce FloatOps.maximumf X k reducesTo_S20000x64_S20000_d1 h_S_ = R
  rfl

/-- The first piece does not write the pre-activation's buffer. -/
theorem s31_keep (W : Valuation τ sig (Elt F)) :
    after (s31 (F := F)) W (Proc.devRef .tc main_v56) = W (Proc.devRef .tc main_v56) := by
  simp only [s31, stretch3, ops, List.drop_succ_cons, List.drop_zero, List.take_succ_cons, List.take_zero]
  after_results_simp

/-- The maximum of the row maxima with the word of −∞ spread over the rows. Every value here passes through its buffer's
    type and back, which is the identity; each such passage is removed by name, the row maxima and the spread word are
    names, and what is left to compare is their maximum with itself. -/
theorem s32_v2 (W : Valuation τ sig (Elt F)) (x0 : (⟨S200000x128, .f32⟩ : BufTy).Contents (Elt F)) (x1 x2 : (⟨S1600000, .i32⟩ : BufTy).Contents (Elt F)) (x3 x4 : (⟨S320000, .i32⟩ : BufTy).Contents (Elt F))
    (x5 : (⟨S256x128, .f32⟩ : BufTy).Contents (Elt F)) (x6 : (⟨S256, .f32⟩ : BufTy).Contents (Elt F)) (x7 : (⟨S256x128, .f32⟩ : BufTy).Contents (Elt F))
    (x8 : (⟨S64x256, .f32⟩ : BufTy).Contents (Elt F)) (x9 : (⟨S64, .f32⟩ : BufTy).Contents (Elt F)) (x10 : (⟨S64x256, .f32⟩ : BufTy).Contents (Elt F))
    (h0 : W (Proc.devRef .tc main_call1_v0) = val_main_call1_v0 (F := F) x0 x1 x2 x3 x4 x5 x6 x7 x8 x9 x10) :
    after (s32 (F := F)) W (Proc.devRef .tc main_call1_v2) = val_main_call1_v2 (F := F) x0 x1 x2 x3 x4 x5 x6 x7 x8 x9 x10 := by
  simp only [s32, stretch3, ops, List.drop_succ_cons, List.drop_zero, List.take_succ_cons, List.take_zero]
  after_results_simp
  rw [h0]
  unfold val_main_call1_v2 val_main_call1_v1 val_main_call1_cst_0
  generalize val_main_call1_v0 (F := F) x0 x1 x2 x3 x4 x5 x6 x7 x8 x9 x10 = R
  generalize constant (F := F) S_ .f32 0xFF800000#32 = k
  have ec : ∀ p1 p2 p3, (TRef.of (T := ⟨S_, .f32⟩) main_call1_cst_0 p1 p2 p3).ofBuf (Val := Elt F)
      ((TRef.of (T := ⟨S_, .f32⟩) main_call1_cst_0 p1 p2 p3).toBuf k) = k := fun _ _ _ => rfl
  rw [ec]
  generalize broadcastInDim (α := F .f32) S20000 ![] bcast_S_S20000 k = B
  have e1 : ∀ p1 p2 p3, (TRef.of (T := ⟨S20000, .f32⟩) main_call1_v1 p1 p2 p3).ofBuf (Val := Elt F)
      ((TRef.of (T := ⟨S20000, .f32⟩) main_call1_v1 p1 p2 p3).toBuf B) = B := fun _ _ _ => rfl
  have e0 : ∀ p1 p2 p3, (TRef.of (T := ⟨S20000, .f32⟩) main_call1_v0 p1 p2 p3).ofBuf (Val := Elt F) R = R := fun _ _ _ => rfl
  rw [e1, e0]
  generalize maximumf B R = M
  rfl

/-- Nor does the second piece. -/
theorem s32_keep (W : Valuation τ sig (Elt F)) :
    after (s32 (F := F)) W (Proc.devRef .tc main_v56) = W (Proc.devRef .tc main_v56) := by
  simp only [s32, stretch3, ops, List.drop_succ_cons, List.drop_zero, List.take_succ_cons, List.take_zero]
  after_results_simp

/-- The rest of the log-softmax, the maximised row maxima and the pre-activation names. -/
theorem s33_v57 (W : Valuation τ sig (Elt F)) (x0 : (⟨S200000x128, .f32⟩ : BufTy).Contents (Elt F)) (x1 x2 : (⟨S1600000, .i32⟩ : BufTy).Contents (Elt F)) (x3 x4 : (⟨S320000, .i32⟩ : BufTy).Contents (Elt F))
    (x5 : (⟨S256x128, .f32⟩ : BufTy).Contents (Elt F)) (x6 : (⟨S256, .f32⟩ : BufTy).Contents (Elt F)) (x7 : (⟨S256x128, .f32⟩ : BufTy).Contents (Elt F))
    (x8 : (⟨S64x256, .f32⟩ : BufTy).Contents (Elt F)) (x9 : (⟨S64, .f32⟩ : BufTy).Contents (Elt F)) (x10 : (⟨S64x256, .f32⟩ : BufTy).Contents (Elt F))
    (h2 : W (Proc.devRef .tc main_call1_v2) = val_main_call1_v2 (F := F) x0 x1 x2 x3 x4 x5 x6 x7 x8 x9 x10)
    (hX : W (Proc.devRef .tc main_v56) = val_main_v56 (F := F) x0 x1 x2 x3 x4 x5 x6 x7 x8 x9 x10) :
    after (s33 (F := F)) W (Proc.devRef .tc main_v57) = val_main_v57 (F := F) x0 x1 x2 x3 x4 x5 x6 x7 x8 x9 x10 := by
  simp only [s33, stretch3, ops, List.drop_succ_cons, List.drop_zero, List.take_succ_cons, List.take_zero]
  after_results_simp
  rw [h2, hX]
  unfold val_main_v57 val_main_call1_v10 val_main_call1_v9 val_main_call1_v8 val_main_call1_v7 val_main_call1_cst_1 val_main_call1_v6 val_main_call1_v5 val_main_call1_v4 val_main_call1_v3
  generalize val_main_call1_v2 (F := F) x0 x1 x2 x3 x4 x5 x6 x7 x8 x9 x10 = R
  generalize val_main_v56 (F := F) x0 x1 x2 x3 x4 x5 x6 x7 x8 x9 x10 = X
  rfl

/-- Operations 72–86, from contents that hold the second layer's pre-activation stage, end with the result stage: the
    three pieces one after the other, the pre-activation's buffer untouched by the first two. -/
theorem stretch3_v57 (W : Valuation τ sig (Elt F)) (x0 : (⟨S200000x128, .f32⟩ : BufTy).Contents (Elt F)) (x1 x2 : (⟨S1600000, .i32⟩ : BufTy).Contents (Elt F)) (x3 x4 : (⟨S320000, .i32⟩ : BufTy).Contents (Elt F))
    (x5 : (⟨S256x128, .f32⟩ : BufTy).Contents (Elt F)) (x6 : (⟨S256, .f32⟩ : BufTy).Contents (Elt F)) (x7 : (⟨S256x128, .f32⟩ : BufTy).Contents (Elt F))
    (x8 : (⟨S64x256, .f32⟩ : BufTy).Contents (Elt F)) (x9 : (⟨S64, .f32⟩ : BufTy).Contents (Elt F)) (x10 : (⟨S64x256, .f32⟩ : BufTy).Contents (Elt F))
    (hX : W (Proc.devRef .tc main_v56) = val_main_v56 (F := F) x0 x1 x2 x3 x4 x5 x6 x7 x8 x9 x10) :
    after (stretch3 (F := F)) W (Proc.devRef .tc main_v57) = val_main_v57 (F := F) x0 x1 x2 x3 x4 x5 x6 x7 x8 x9 x10 := by
  rw [after_split (stretch3 (F := F)) 2 W, after_split ((stretch3 (F := F)).drop 2) 3]
  exact s33_v57 _ _ _ _ _ _ _ _ _ _ _ _
    (s32_v2 _ _ _ _ _ _ _ _ _ _ _ _ (s31_v0 W _ _ _ _ _ _ _ _ _ _ _ hX))
    ((s32_keep _).trans ((s31_keep W).trans hX))

/-- All eighty-six operations, from any contents: the result buffer ends at the result stage of the arguments found. -/
theorem after_ops_v57 (V : Valuation τ sig (Elt F)) :
    after (ops (F := F)) V (Proc.devRef .tc main_v57) = val_main_v57 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [ops_eq]
  exact stretch3_v57 _ _ _ _ _ _ _ _ _ _ _ _
    (stretch2_v56 _ _ _ _ _ _ _ _ _ _ _ _ (stretch1_v28 V) (stretch1_arg3 V) (stretch1_arg4 V) (stretch1_arg8 V)
      (stretch1_arg9 V) (stretch1_arg10 V))

set_option maxRecDepth 8192 in
set_option maxHeartbeats 34400000 in
/-- The reference's run with its result named: on every device, from any memory with zero counters, every weakly fair
    execution of @main terminates with the result at the result stage of the arguments' launch contents, the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57) = val_main_v57 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v57).trans (after_ops_v57 _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl)⟩)
    (run_seq scopedRefs_eq scopedSems_eq defs main (fun _ => ops) main_eq (fun _ => ops_sub) m ρ)

end Cert.ReferenceIdeal.RefVal

end
-- ==== Proof.lean ====
/-
  A two-layer mean-aggregating graph network: the kernel program against its jnp reference, on the extended reals.

  Both programs gather the neighbours' rows, average them per target node (a scatter-add of the rows, a scatter-add of ones,
  the quotient by the count or one), and apply to each node `max ((agg·Wlᵀ + x·Wrᵀ) + b) 0`; they do the same again from that
  output and finish each row with its log-softmax. The reference computes a layer by host matrix products; the kernel
  program computes it block of 2000 rows by block in a pipelined region, the operands narrowed to bf16 (the identity on
  the extended reals), each product into a zero accumulator. The gather, the two scatter-adds and the quotient are the
  same host operations in both programs and are never opened. What differs is the order of one sum — the bias added
  after the two products or between them —, and addition on the extended reals is commutative and associative: the
  precondition's finiteness is not used.

  The frames: the kernel programs' are the generated frame certificates; the reference's is its run with the arguments
  unchanged. The kernel's sanctioned idealization rewrote nothing. For the value claim the witness is the reference's
  result stage at the launch arguments: the kernel program ends there because each region's result array is the layer
  function of the arrays it is entered with and those are the reference's stages (the chain through @main's boundaries);
  the reference ends there by its own operations, read in three stretches; arguments that agree give the same stage.
-/
import proofs.«145620_j876173328847_1_alg».proof.Defs
import proofs.«145620_j876173328847_1_alg».proof.Proof.Gen.Kernel
import proofs.«145620_j876173328847_1_alg».proof.Proof.Gen.Kernel.Frame
import proofs.«145620_j876173328847_1_alg».proof.Proof.Gen.KernelIdeal
import proofs.«145620_j876173328847_1_alg».proof.Proof.Gen.KernelIdeal.Frame
import proofs.«145620_j876173328847_1_alg».proof.Proof.Gen.ReferenceIdeal
import proofs.«145620_j876173328847_1_alg».proof.Proof.Gen.Pre_finite_inputs
import proofs.«145620_j876173328847_1_alg».proof.Proof.KRun
import proofs.«145620_j876173328847_1_alg».proof.Proof.KGlue
import proofs.«145620_j876173328847_1_alg».proof.Proof.RefVal
import Idealize.ShloMosaic.Adequacy
import Idealize.ShloMosaic.Init

noncomputable section

namespace Cert.Proof

open Idealize.ShloMosaic Idealize.ShloMosaic.TcCoe Idealize.SL.Sem

/-- The word-level kernel program terminates, faults nowhere and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: a straight line of host operations, none of which writes an argument. -/
theorem frame_referenceIdeal : Cert.frame_ReferenceIdeal := fun m ρ _ => Cert.ReferenceIdeal.ValueP.run (F := Ideal) m ρ

/-- The idealization rewrote no operation. -/
theorem preserves : Cert.preserves_Kernel_KernelIdeal := trivial

/-- The idealized kernel program's run with its result named: the result array ends at the reference's result stage of
    the launch arguments. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v47)
          = Cert.ReferenceIdeal.ReadP.val_main_v57 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) :=
  (θ_run (Cert.KernelIdeal.defs (F := Ideal)) _ _).mono
    (fun r h c => ⟨(h c).1.trans (Cert.KernelIdeal.KGlue.result_stage m ρ c), (h c).2⟩)
    (Cert.KernelIdeal.GenRun.run_result (F := Ideal) m ρ)

/-- From memories that agree on the arguments both programs end with the same result array, entry by entry. -/
theorem algebraic : Cert.algebraic_KernelIdeal_ReferenceIdeal := by
  intro m ρ m' ρ' _ hagree
  refine ⟨_, kernel_run m ρ, ?_⟩
  refine (θ_run (Cert.ReferenceIdeal.defs (F := Ideal)) _ _).mono (fun r h c => ⟨(h c).1.trans ?_, (h c).2⟩)
    (Cert.ReferenceIdeal.RefVal.run (F := Ideal) m' ρ')
  obtain ⟨h0, h1, h2, h3, h4, h5, h6, h7, h8, h9, h10⟩ := hagree c
  rw [h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
